-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x262144 : Shape := ⟨2, ![96, 262144]⟩
abbrev S96x64 : Shape := ⟨2, ![96, 64]⟩
abbrev S96x4096 : Shape := ⟨2, ![96, 4096]⟩
abbrev S1x64 : Shape := ⟨2, ![1, 64]⟩
abbrev S96 : Shape := ⟨1, ![96]⟩
abbrev S96x1 : Shape := ⟨2, ![96, 1]⟩
abbrev S_ : Shape := ⟨0, ![]⟩

abbrev nBuf : Space → Nat
  | .hbm => 30
  | .vmem => 8
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S96x262144, .f32⟩
  | .hbm, ⟨3, _⟩ => ⟨S96x262144, .f32⟩
  | .hbm, ⟨4, _⟩ => ⟨S96x64, .f32⟩
  | .hbm, ⟨5, _⟩ => ⟨S96x64, .f32⟩
  | .hbm, ⟨6, _⟩ => ⟨S_, .f32⟩
  | .hbm, ⟨7, _⟩ => ⟨S96, .f32⟩
  | .hbm, ⟨8, _⟩ => ⟨S96x1, .f32⟩
  | .hbm, ⟨9, _⟩ => ⟨S_, .f32⟩
  | .hbm, ⟨10, _⟩ => ⟨S_, .f32⟩
  | .hbm, ⟨11, _⟩ => ⟨S96x1, .f32⟩
  | .hbm, ⟨12, _⟩ => ⟨S96x1, .f32⟩
  | .hbm, ⟨13, _⟩ => ⟨S96x64, .f32⟩
  | .hbm, ⟨14, _⟩ => ⟨S96x64, .f32⟩
  | .hbm, ⟨15, _⟩ => ⟨S_, .f32⟩
  | .hbm, ⟨16, _⟩ => ⟨S96, .f32⟩
  | .hbm, ⟨17, _⟩ => ⟨S96x1, .f32⟩
  | .hbm, ⟨18, _⟩ => ⟨S_, .f32⟩
  | .hbm, ⟨19, _⟩ => ⟨S_, .f32⟩
  | .hbm, ⟨20, _⟩ => ⟨S96x1, .f32⟩
  | .hbm, ⟨21, _⟩ => ⟨S96x1, .f32⟩
  | .hbm, ⟨22, _⟩ => ⟨S96x64, .f32⟩
  | .hbm, ⟨23, _⟩ => ⟨S96x64, .f32⟩
  | .hbm, ⟨24, _⟩ => ⟨S96x64, .f32⟩
  | .hbm, ⟨25, _⟩ => ⟨S96x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S96x4096, .f32⟩
  | .local _ .vmem, ⟨1, _⟩ => ⟨S96x4096, .f32⟩
  | .local _ .vmem, ⟨2, _⟩ => ⟨S96x4096, .f32⟩
  | .local _ .vmem, ⟨3, _⟩ => ⟨S96x4096, .f32⟩
  | .local _ .vmem, ⟨4, _⟩ => ⟨S96x64, .f32⟩
  | .local _ .vmem, ⟨5, _⟩ => ⟨S96x64, .f32⟩
  | .local _ .vmem, ⟨6, _⟩ => ⟨S96x64, .f32⟩
  | .local _ .vmem, ⟨7, _⟩ => ⟨S96x64, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32x3x512x512_S96x262144 : S32x3x512x512.ShapeCasts S96x262144
  inb_S96x64_S96x64_0_0 : ∀ a, (![0, 0] : Fin 2 → Nat) a + S96x64.size a ≤ S96x64.size a
  h_S96x64 : 0 < S96x64.numel
  shapeCasts_S96x64_S96x64 : S96x64.ShapeCasts S96x64
  iota_S1x64_d1_w32 : S1x64.Iotas .tc 32 [1]
  inb_S96x4096_S96x4096_0_0 : ∀ a, (![0, 0] : Fin 2 → Nat) a + S96x4096.size a ≤ S96x4096.size a
  h_S96x4096 : 0 < S96x4096.numel
  shapeCasts_S96x4096_S96x4096 : S96x4096.ShapeCasts S96x4096
  natLt_1_32 : 1 < 32
  reduces_S96x4096_S96 : S96x4096.Reduces [1] S96
  shapeCasts_S96_S96x1 : S96.ShapeCasts S96x1
  broadcasts_S96x1_S96x64 : S96x1.Broadcasts S96x64
  broadcasts_S1x64_S96x64 : S1x64.Broadcasts S96x64
  reducesTo_S96x64_S96_d1 : S96x64.ReducesTo [1] S96
  h_S_ : 0 < S_.numel
  bcast_S96_S96x1_0 : S96.BroadcastsInDim S96x1 (![0] : Fin 1 → Fin S96x1.rank)
  bcast_S_S96x1 : S_.BroadcastsInDim S96x1 (![] : Fin 0 → Fin S96x1.rank)
  bcast_S96x1_S96x64_0_1 : S96x1.BroadcastsInDim S96x64 (![0, 1] : Fin 2 → Fin S96x64.rank)
  reducesTo_S96x64_S_d0_1 : S96x64.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x4096.size a ≤ S96x262144.size a
  hwx0_0 : ∀ i : grid0.Coords, EltTy.bits .f32 = 32 ∨ (Rect.block (s := S96x262144) S96x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S96x4096.size a ≤ S96x262144.size a
  hwx0_1 : ∀ i : grid0.Coords, EltTy.bits .f32 = 32 ∨ (Rect.block (s := S96x262144) S96x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x64.size a ≤ S96x64.size a
  hwx0_3 : ∀ i : grid0.Coords, EltTy.bits .f32 = 32 ∨ (Rect.block (s := S96x64) S96x64.size (cc0_transform_3 i) (hinb0_3 i)).WholeWords (EltTy.packing .f32)

variable [Facts₀]

abbrev win0_0 : Pipeline.Window sig grid0 :=
  Pipeline.Window.ofSpec (Memref.whole main_v0) S96x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S96x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S96x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S96x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S96x262144 : Shape := ⟨2, ![96, 262144]⟩
abbrev S96 : Shape := ⟨1, ![96]⟩
abbrev S96x1 : Shape := ⟨2, ![96, 1]⟩
abbrev S25165824 : Shape := ⟨1, ![25165824]⟩
abbrev S6144 : Shape := ⟨1, ![6144]⟩
abbrev S25165824x1 : Shape := ⟨2, ![25165824, 1]⟩
abbrev S96x64 : Shape := ⟨2, ![96, 64]⟩
abbrev S32x3x64 : Shape := ⟨3, ![32, 3, 64]⟩

abbrev nBuf : Space → Nat
  | .hbm => 112
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S_, .f32⟩
  | .hbm, ⟨6, _⟩ => ⟨S32x3x512x512, .f32⟩
  | .hbm, ⟨7, _⟩ => ⟨S32x3x512x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x3x512x512, .f32⟩
  | .hbm, ⟨12, _⟩ => ⟨S32x3x512x512, .f32⟩
  | .hbm, ⟨13, _⟩ => ⟨S_, .f32⟩
  | .hbm, ⟨14, _⟩ => ⟨S32x3x512x512, .f32⟩
  | .hbm, ⟨15, _⟩ => ⟨S32x3x512x512, .f32⟩
  | .hbm, ⟨16, _⟩ => ⟨S96x262144, .f32⟩
  | .hbm, ⟨17, _⟩ => ⟨S_, .f32⟩
  | .hbm, ⟨18, _⟩ => ⟨S96x262144, .f32⟩
  | .hbm, ⟨19, _⟩ => ⟨S96x262144, .f32⟩
  | .hbm, ⟨20, _⟩ => ⟨S96x262144, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S96x262144, .i32⟩
  | .hbm, ⟨25, _⟩ => ⟨S96x262144, .i32⟩
  | .hbm, ⟨26, _⟩ => ⟨S_, .i32⟩
  | .hbm, ⟨27, _⟩ => ⟨S96x262144, .i32⟩
  | .hbm, ⟨28, _⟩ => ⟨S96x262144, .i32⟩
  | .hbm, ⟨29, _⟩ => ⟨S96, .i32⟩
  | .hbm, ⟨30, _⟩ => ⟨S_, .i32⟩
  | .hbm, ⟨31, _⟩ => ⟨S96, .i32⟩
  | .hbm, ⟨32, _⟩ => ⟨S96, .i32⟩
  | .hbm, ⟨33, _⟩ => ⟨S96x1, .i32⟩
  | .hbm, ⟨34, _⟩ => ⟨S96x262144, .i32⟩
  | .hbm, ⟨35, _⟩ => ⟨S96x262144, .i32⟩
  | .hbm, ⟨36, _⟩ => ⟨S25165824, .i32⟩
  | .hbm, ⟨37, _⟩ => ⟨S_, .f32⟩
  | .hbm, ⟨38, _⟩ => ⟨S25165824, .f32⟩
  | .hbm, ⟨39, _⟩ => ⟨S_, .f32⟩
  | .hbm, ⟨40, _⟩ => ⟨S6144, .f32⟩
  | .hbm, ⟨41, _⟩ => ⟨S25165824x1, .i32⟩
  | .hbm, ⟨42, _⟩ => ⟨S6144, .f32⟩
  | .hbm, ⟨43, _⟩ => ⟨S96x64, .f32⟩
  | .hbm, ⟨44, _⟩ => ⟨S_, .f32⟩
  | .hbm, ⟨45, _⟩ => ⟨S96, .f32⟩
  | .hbm, ⟨46, _⟩ => ⟨S96x1, .f32⟩
  | .hbm, ⟨47, _⟩ => ⟨S_, .f32⟩
  | .hbm, ⟨48, _⟩ => ⟨S_, .f32⟩
  | .hbm, ⟨49, _⟩ => ⟨S96x1, .f32⟩
  | .hbm, ⟨50, _⟩ => ⟨S96x1, .f32⟩
  | .hbm, ⟨51, _⟩ => ⟨S96x64, .f32⟩
  | .hbm, ⟨52, _⟩ => ⟨S96x64, .f32⟩
  | .hbm, ⟨53, _⟩ => ⟨S32x3x64, .f32⟩
  | .hbm, ⟨54, _⟩ => ⟨S_, .f32⟩
  | .hbm, ⟨55, _⟩ => ⟨S32x3x512x512, .f32⟩
  | .hbm, ⟨56, _⟩ => ⟨S32x3x512x512, .f32⟩
  | .hbm, ⟨57, _⟩ => ⟨S_, .f32⟩
  | .hbm, ⟨58, _⟩ => ⟨S32x3x512x512, .f32⟩
  | .hbm, ⟨59, _⟩ => ⟨S32x3x512x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32x3x512x512, .f32⟩
  | .hbm, ⟨64, _⟩ => ⟨S32x3x512x512, .f32⟩
  | .hbm, ⟨65, _⟩ => ⟨S_, .f32⟩
  | .hbm, ⟨66, _⟩ => ⟨S32x3x512x512, .f32⟩
  | .hbm, ⟨67, _⟩ => ⟨S32x3x512x512, .f32⟩
  | .hbm, ⟨68, _⟩ => ⟨S96x262144, .f32⟩
  | .hbm, ⟨69, _⟩ => ⟨S_, .f32⟩
  | .hbm, ⟨70, _⟩ => ⟨S96x262144, .f32⟩
  | .hbm, ⟨71, _⟩ => ⟨S96x262144, .f32⟩
  | .hbm, ⟨72, _⟩ => ⟨S96x262144, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S96x262144, .i32⟩
  | .hbm, ⟨77, _⟩ => ⟨S96x262144, .i32⟩
  | .hbm, ⟨78, _⟩ => ⟨S_, .i32⟩
  | .hbm, ⟨79, _⟩ => ⟨S96x262144, .i32⟩
  | .hbm, ⟨80, _⟩ => ⟨S96x262144, .i32⟩
  | .hbm, ⟨81, _⟩ => ⟨S96, .i32⟩
  | .hbm, ⟨82, _⟩ => ⟨S_, .i32⟩
  | .hbm, ⟨83, _⟩ => ⟨S96, .i32⟩
  | .hbm, ⟨84, _⟩ => ⟨S96, .i32⟩
  | .hbm, ⟨85, _⟩ => ⟨S96x1, .i32⟩
  | .hbm, ⟨86, _⟩ => ⟨S96x262144, .i32⟩
  | .hbm, ⟨87, _⟩ => ⟨S96x262144, .i32⟩
  | .hbm, ⟨88, _⟩ => ⟨S25165824, .i32⟩
  | .hbm, ⟨89, _⟩ => ⟨S_, .f32⟩
  | .hbm, ⟨90, _⟩ => ⟨S25165824, .f32⟩
  | .hbm, ⟨91, _⟩ => ⟨S_, .f32⟩
  | .hbm, ⟨92, _⟩ => ⟨S6144, .f32⟩
  | .hbm, ⟨93, _⟩ => ⟨S25165824x1, .i32⟩
  | .hbm, ⟨94, _⟩ => ⟨S6144, .f32⟩
  | .hbm, ⟨95, _⟩ => ⟨S96x64, .f32⟩
  | .hbm, ⟨96, _⟩ => ⟨S_, .f32⟩
  | .hbm, ⟨97, _⟩ => ⟨S96, .f32⟩
  | .hbm, ⟨98, _⟩ => ⟨S96x1, .f32⟩
  | .hbm, ⟨99, _⟩ => ⟨S_, .f32⟩
  | .hbm, ⟨100, _⟩ => ⟨S_, .f32⟩
  | .hbm, ⟨101, _⟩ => ⟨S96x1, .f32⟩
  | .hbm, ⟨102, _⟩ => ⟨S96x1, .f32⟩
  | .hbm, ⟨103, _⟩ => ⟨S96x64, .f32⟩
  | .hbm, ⟨104, _⟩ => ⟨S96x64, .f32⟩
  | .hbm, ⟨105, _⟩ => ⟨S32x3x64, .f32⟩
  | .hbm, ⟨106, _⟩ => ⟨S32x3x64, .f32⟩
  | .hbm, ⟨107, _⟩ => ⟨S32x3x64, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_c_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_cst_7 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_10 : Ref sig .tc := ⟨.hbm, 54, rfl⟩
abbrev main_v28 : Ref sig .tc := ⟨.hbm, 55, rfl⟩
abbrev main_v29 : Ref sig .tc := ⟨.hbm, 56, rfl⟩
abbrev main_cst_11 : Ref sig .tc := ⟨.hbm, 57, rfl⟩
abbrev main_v30 : Ref sig .tc := ⟨.hbm, 58, rfl⟩
abbrev main_v31 : Ref sig .tc := ⟨.hbm, 59, rfl⟩
abbrev main_cst_12 : Ref sig .tc := ⟨.hbm, 60, rfl⟩
abbrev main_cst_13 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v32 : Ref sig .tc := ⟨.hbm, 67, rfl⟩
abbrev main_v33 : Ref sig .tc := ⟨.hbm, 68, rfl⟩
abbrev main_cst_14 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_15 : Ref sig .tc := ⟨.hbm, 73, rfl⟩
abbrev main_c_16 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_v37 : Ref sig .tc := ⟨.hbm, 80, rfl⟩
abbrev main_v38 : Ref sig .tc := ⟨.hbm, 81, rfl⟩
abbrev main_c_17 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_18 : Ref sig .tc := ⟨.hbm, 89, rfl⟩
abbrev main_v45 : Ref sig .tc := ⟨.hbm, 90, rfl⟩
abbrev main_cst_19 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_20 : Ref sig .tc := ⟨.hbm, 96, rfl⟩
abbrev main_v50 : Ref sig .tc := ⟨.hbm, 97, rfl⟩
abbrev main_v51 : Ref sig .tc := ⟨.hbm, 98, rfl⟩
abbrev main_cst_21 : Ref sig .tc := ⟨.hbm, 99, rfl⟩
abbrev main_call5_v0 : Ref sig .tc := ⟨.hbm, 100, rfl⟩
abbrev main_call5_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_22 : Ref sig .tc := ⟨.hbm, 108, rfl⟩
abbrev main_v58 : Ref sig .tc := ⟨.hbm, 109, rfl⟩
abbrev main_cst_23 : Ref sig .tc := ⟨.hbm, 110, rfl⟩
abbrev main_v59 : Ref sig .tc := ⟨.hbm, 111, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  shapeCasts_S32x3x512x512_S96x262144 : S32x3x512x512.ShapeCasts S96x262144
  bcast_S_S96x262144 : S_.BroadcastsInDim S96x262144 (![] : Fin 0 → Fin S96x262144.rank)
  bcast_S_S96 : S_.BroadcastsInDim S96 (![] : Fin 0 → Fin S96.rank)
  bcast_S96_S96x1_0 : S96.BroadcastsInDim S96x1 (![0] : Fin 1 → Fin S96x1.rank)
  bcast_S96x1_S96x262144_0_1 : S96x1.BroadcastsInDim S96x262144 (![0, 1] : Fin 2 → Fin S96x262144.rank)
  shapeCasts_S96x262144_S25165824 : S96x262144.ShapeCasts S25165824
  bcast_S_S25165824 : S_.BroadcastsInDim S25165824 (![] : Fin 0 → Fin S25165824.rank)
  bcast_S_S6144 : S_.BroadcastsInDim S6144 (![] : Fin 0 → Fin S6144.rank)
  bcast_S25165824_S25165824x1_0 : S25165824.BroadcastsInDim S25165824x1 (![0] : Fin 1 → Fin S25165824x1.rank)
  shapeCasts_S6144_S96x64 : S6144.ShapeCasts S96x64
  reducesTo_S96x64_S96_d1 : S96x64.ReducesTo [1] S96
  h_S_ : 0 < S_.numel
  bcast_S_S96x1 : S_.BroadcastsInDim S96x1 (![] : Fin 0 → Fin S96x1.rank)
  bcast_S96x1_S96x64_0_1 : S96x1.BroadcastsInDim S96x64 (![0, 1] : Fin 2 → Fin S96x64.rank)
  shapeCasts_S96x64_S32x3x64 : S96x64.ShapeCasts S32x3x64
  reducesTo_S32x3x64_S_d0_1_2 : S32x3x64.ReducesTo [0, 1, 2] S_
  scatter_S6144_S25165824x1_S25165824_n_0_0_1_wf : ScatterDims.WF S6144 S25165824x1 S25165824 [] [0] [0] 1

variable [Facts₀]

def scatter_S6144_S25165824x1_S25165824_n_0_0_1 : ScatterDims S6144 S25165824x1 S25165824 where
  updateWindowDims := []
  insertedWindowDims := [0]
  scatterDimsToOperandDims := [0]
  indexVectorDim := 1
  wf := scatter_S6144_S25165824x1_S25165824_n_0_0_1_wf

class Facts : Prop extends Facts₀ where

variable [Facts]
-- ==== Proof.Spec.lean ====
/-
  The common value of the two programs, stated once over the extended reals.

  A sample `x` falls in bin `clamp₀⁶³ ⌊clamp₀¹(x) · 64⌋` (`binVec`, sample by sample). For a 96 × 262144 array
  the count `cnt X (r, q)` is the number of samples of row `r` in bin `q`, written as a sum of 0/1 indicators over
  the 64 consecutive tiles of 4096 samples a row splits into. Each row of counts is divided by the larger of its
  total and a small constant (`rowNorm`), and the result of the whole computation is the mean, over the 96 × 64
  entries, of the absolute difference of the two arrays' normalized counts (`loss`).
-/
import Idealize.ShloMosaic.PureOps.Ideal
import Idealize.ShloMosaic.PureOps.Vector
import Idealize.ShloMosaic.Lib.ValueIdx

noncomputable section

namespace Cert.Hist

open Idealize.ShloMosaic Idealize.ShloMosaic.ValueIdx

/-- The flattened sample array: 96 rows of 262144 samples. -/
abbrev Sflat : Shape := ⟨2, ![96, 262144]⟩
/-- One tile of it: 96 rows of 4096 samples. -/
abbrev Sblk : Shape := ⟨2, ![96, 4096]⟩
/-- The counts: 96 rows of 64 bins. -/
abbrev Sacc : Shape := ⟨2, ![96, 64]⟩

section
variable {F : FTy → Type} [FloatOps F]

/-- The bin index of every sample of an array of any shape: `(x - 0) · 1` clamped to [0, 1], times 64, truncated to a
    32-bit integer, clamped to 0 … 63. -/
def binVec {s : Shape} (x : FVec F s .f32) : IVec s 32 :=
  minsi (broadcast s 63#32) (maxsi (broadcast s 0#32) (fptosi 32
    (mulf (minimumf (broadcast s (Scalar.ofBits .f32 0x3F800000#32))
        (maximumf (broadcast s (Scalar.ofBits .f32 0x00000000#32))
          (mulf (subf x (broadcast s (Scalar.ofBits .f32 0x00000000#32))) (broadcast s (Scalar.ofBits .f32 0x3F800000#32)))))
      (broadcast s (Scalar.ofBits .f32 0x42800000#32)))))

end

/-- The sample of row `r` at position `e` of tile `s`. -/
abbrev tileIx (r : Fin 96) (s : Fin 64) (e : Fin 4096) : Sflat.Idx :=
  ix2 r (⟨4096 * s.val + e.val, by have := s.isLt; have := e.isLt; omega⟩ : Fin 262144)

/-- How many samples of row `r` fall in bin `q`: a sum of 0/1 indicators, tile by tile. -/
def cntAt (X : FVec Ideal Sflat .f32) (r : Fin 96) (q : Fin 64) : EReal :=
  ∑ s : Fin 64, ∑ e : Fin 4096, if binVec X (tileIx r s e) = BitVec.ofNat 32 q.val then (1 : EReal) else 0

/-- The 96 × 64 array of counts. -/
def cnt (X : FVec Ideal Sflat .f32) : FVec Ideal Sacc .f32 := fun j => cntAt X (j 0) (j 1)

/-- A row of counts divided by the larger of `2⁻²⁷·1.34…` (the f32 nearest 1e-8) and the row's total. -/
def rowNorm (C : FVec Ideal Sacc .f32) (j : Sacc.Idx) : EReal :=
  Ideal.div (C j) (max (Ideal.ofBits .f32 0x322BCC77#32) (Ideal.ofBits .f32 0x00000000#32 + ∑ k : Fin 64, C (ix2 (j 0) k)))

/-- The mean absolute difference of the two normalized count arrays. -/
def loss (Cf Cr : FVec Ideal Sacc .f32) : EReal :=
  Ideal.div (Ideal.ofBits .f32 0x00000000#32 + ∑ j : Sacc.Idx, max (rowNorm Cf j - rowNorm Cr j) (-(rowNorm Cf j - rowNorm Cr j)))
    (Ideal.ofBits .f32 0x45C00000#32)

end Cert.Hist

end
-- ==== Proof.HistStep.lean ====
/-
  One bin of the histogram, and all sixty-four.

  For a bin `b` the kernel adds to its 96 × 64 accumulator the outer product of a column and a row: the column holds, for
  each of the 96 rows, the number of the tile's 4096 bin indices equal to `b` (a 0/1 mask summed along the row); the row
  holds, for each of the 64 bin positions, 1 where the position's number is `b` and 0 elsewhere. `binStep` is that update
  and `histUpTo n` the first `n` of them, bins 0 … n − 1 in order. Over the extended reals, where the positions are numbered
  0 … 63, entry (r, q) of `histUpTo 64` is the accumulator's entry plus the number of indices of row `r` equal to `q`: of
  the 64 products only the one with `b = q` is not zero.
-/
import proofs.«135669_j26886495272980_1_alg».proof.Proof.Spec
import Idealize.ShloMosaic.PureOps.Contract
import Idealize.ShloMosaic.PureOps.Ideal.Laws
import Idealize.ShloMosaic.Lib.ValueLayout
import Idealize.ShloMosaic.Lib.Pipeline.Value

noncomputable section

namespace Cert.Hist

open Idealize.ShloMosaic Idealize.ShloMosaic.ValueIdx

/-- A row's worth of partial counts, its column form, and the row of bin positions. -/
abbrev Srow : Shape := ⟨1, ![96]⟩
abbrev Scol : Shape := ⟨2, ![96, 1]⟩
abbrev Sbin : Shape := ⟨2, ![1, 64]⟩

/-! ## Two layout steps read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The update, at any instance -/

section
variable {F : FTy → Type} [FloatOps F]

/-- Bin `b`'s update of the accumulator: `acc + (number of b's per row) ⊗ (1 at position b)`. -/
def binStep (b : BitVec 32) (ids : IVec Sbin 32) (idx : IVec Sblk 32) (acc : FVec F Sacc .f32) : FVec F Sacc .f32 :=
  addf acc (mulf
    (broadcastTo Sacc (shapeCast Scol
      (multiReduction .add [1] Srow (sitofp .f32 (extui 32 (cmpi .eq idx (broadcast Sblk b)) (by decide)) : FVec F Sblk .f32)
        0x00000000#32 (by decide) (.inl rfl) rfl) (by decide)) (by decide))
    (broadcastTo Sacc (sitofp .f32 (extui 32 (cmpi .eq ids (broadcast Sbin b)) (by decide)) : FVec F Sbin .f32) (by decide)))

/-- The updates of bins 0 … n − 1, in that order. -/
def histUpTo (ids : IVec Sbin 32) (idx : IVec Sblk 32) (acc : FVec F Sacc .f32) : Nat → FVec F Sacc .f32
  | 0 => acc
  | n + 1 => binStep (BitVec.ofNat 32 n) ids idx (histUpTo ids idx acc n)

end

/-! ## Read over the extended reals -/

/-- A comparison's bit, widened and converted, is the 0/1 indicator of the equality. -/
theorem mask_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    have : ((IntOp.cmpi .eq a a).setWidth 32).toInt = 1 := by
      unfold IntOp.cmpi; simp
    rw [this, if_pos rfl]; norm_num
  · have hb : (a == b) = false := by simpa using h
    have : ((IntOp.cmpi .eq a b).setWidth 32).toInt = 0 := by
      unfold IntOp.cmpi; rw [hb]; rfl
    rw [this, if_neg h]; norm_num

/-- Over row index `r`, the index the row sum inserts at position `e` is (r, e). -/
theorem lift_row (h : Sblk.Reduces [1] Srow) (r : Fin 96) (e : Fin 4096) : h.lift (ix1 r) e = ix2 r e := by
  funext a
  match a with
  | ⟨0, _⟩ => exact Fin.ext rfl
  | ⟨1, _⟩ => exact Fin.ext rfl

/-- Entry (r, q) after bin `b`'s update. -/
theorem binStep_apply (b : BitVec 32) (ids : IVec Sbin 32) (idx : IVec Sblk 32) (acc : FVec Ideal Sacc .f32)
    (r : Fin 96) (q : Fin 64) :
    binStep b ids idx acc (ix2 r q)
      = acc (ix2 r q) + (∑ e : Fin 4096, if idx (ix2 r e) = b then (1 : EReal) else 0)
          * (if ids (ix2 (0 : Fin 1) q) = b then 1 else 0) := by
  unfold binStep
  show acc (ix2 r q) + _ * _ = _
  congr 1
  congr 1
  · refine (broadcastTo_a1_ab_apply _ _ r q).trans ?_
    refine (shapeCast_a_a1_apply _ _ r (0 : Fin 1)).trans ?_
    refine (Ideal.multiReduction_add_single _ 0x00000000#32 _ (.inl rfl) rfl (ix1 r)).trans ?_
    refine Finset.sum_congr rfl fun e _ => ?_
    exact (congrArg (fun i => (FloatOps.sitofp (F := Ideal) .f32 ((IntOp.cmpi .eq (idx i) b).setWidth 32) : EReal))
      (lift_row _ r e)).trans (mask_eq _ _)
  · refine (broadcastTo_1b_ab_apply _ _ r q).trans ?_
    exact mask_eq _ _

/-- Entry (r, q) after the first `n` updates: the accumulator's plus, for each bin below `n`, that bin's count times its
    position's indicator. -/
theorem histUpTo_apply (ids : IVec Sbin 32) (idx : IVec Sblk 32) (acc : FVec Ideal Sacc .f32) (r : Fin 96) (q : Fin 64) (n : Nat) :
    histUpTo ids idx acc n (ix2 r q)
      = acc (ix2 r q) + ∑ b ∈ Finset.range n, (∑ e : Fin 4096, if idx (ix2 r e) = BitVec.ofNat 32 b then (1 : EReal) else 0)
          * (if ids (ix2 (0 : Fin 1) q) = BitVec.ofNat 32 b then 1 else 0) := by
  induction n with
  | zero => simp [histUpTo]
  | succ n ih =>
    rw [histUpTo, binStep_apply, ih, Finset.sum_range_succ, add_assoc]

/-- With the positions numbered 0 … 63, all sixty-four updates add to entry (r, q) the number of row `r`'s indices equal
    to `q`. -/
theorem hist64_apply (ids : IVec Sbin 32) (hids : ∀ q : Fin 64, ids (ix2 (0 : Fin 1) q) = BitVec.ofNat 32 q.val)
    (idx : IVec Sblk 32) (acc : FVec Ideal Sacc .f32) (r : Fin 96) (q : Fin 64) :
    histUpTo ids idx acc 64 (ix2 r q)
      = acc (ix2 r q) + ∑ e : Fin 4096, if idx (ix2 r e) = BitVec.ofNat 32 q.val then (1 : EReal) else 0 := by
  rw [histUpTo_apply, hids q]
  congr 1
  rw [Finset.sum_eq_single q.val]
  · rw [if_pos rfl, mul_one]
  · intro b hb hne
    have hb' : b < 64 := Finset.mem_range.1 hb
    have hq := q.isLt
    rw [if_neg, mul_zero]
    intro h
    apply hne
    have := congrArg BitVec.toNat h
    simp only [BitVec.toNat_ofNat] at this
    omega
  · intro h
    exact absurd (Finset.mem_range.2 q.isLt) h

end Cert.Hist

end
-- ==== Proof.Pieces.lean ====
/-
  What one grid point leaves in the two accumulators and the two output blocks.

  At a point the kernel body reads a 96 × 4096 tile of each input, turns every sample into its bin index, and runs the
  sixty-four bin updates on each accumulator: from zero at the first point, from what the previous point left otherwise.
  Each output block is the accumulator's contents read back. So each of the four buffers ends the point at
  `histUpTo … 64` of its tile's bin indices over the accumulator's starting contents; the statements below say so for the
  two kinds of point, at any instance of the float operations.
-/
import proofs.«135669_j26886495272980_1_alg».proof.Proof.Gen.KernelIdeal.Frame
import proofs.«135669_j26886495272980_1_alg».proof.Proof.HistStep
import Idealize.ShloMosaic.Lib.Pipeline.Value

set_option maxRecDepth 65536

noncomputable section

namespace Cert.KernelIdeal.Gen

open Idealize.ShloMosaic Idealize.ShloMosaic.TcCoe Idealize.ShloMosaic.Tactic
open Idealize.SL Idealize.SL.Sem Cert.Hist

variable {F : FTy → Type} [FloatOps F]

theorem hz : (![0, 0] : Fin 2 → Nat) = fun _ => 0 := funext fun a => by fin_cases a <;> rfl

/-- The row of bin positions 0 … 63 the body compares against. -/
abbrev binIds : IVec Sbin 32 := iota Kind.tc S1x64 32 [1] iota_S1x64_d1_w32

/-- The accumulator's contents at the first point: all zero. -/
abbrev zeroAcc : FVec F Sacc .f32 := broadcast Sacc (Scalar.ofBits .f32 0x00000000#32)

/-- The first input's tile, sample by sample, as bin indices. -/
theorem idx0_eq (x : Vec F S96x4096 .f32) : k0_pay4 x = binVec x := by
  simp only [k0_pay4, shapeCast_self]
  rfl

/-- The second input's tile likewise. -/
theorem idx1_eq (x : Vec F S96x4096 .f32) : k0_pay48 (k0_pay46 x) k0_pay47 = binVec x := by
  simp only [k0_pay48, k0_pay46, k0_pay47, shapeCast_self]
  rfl

theorem zero0_eq : (k0_pay2 : FVec F S96x64 .f32) = zeroAcc := by
  simp only [k0_pay2, shapeCast_self]

theorem zero1_eq : (k0_pay3 : FVec F S96x64 .f32) = zeroAcc := by
  simp only [k0_pay3, shapeCast_self]

/-! ## A point after the first -/

theorem sacc0_B (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : ¬cond0_0 i)
    (x0 : Vec F S96x4096 .f32) (x1 : Vec F S96x4096 .f32) (xs0 : Vec F S96x64 .f32) (xs1 : Vec F S96x64 .f32) :
    sout0_B_0 c i arg1 harg1 arg2 harg2 arg3 harg3 arg4 harg4 arg5 harg5 arg6 harg6 hc0 x0 x1 xs0 xs1 = histUpTo binIds (k0_pay4 x0) xs0 64 := by
  unfold sout0_B_0
  rw [View.read_writes_eq_canon _ _ _ (scover0_B_0 c i arg1 harg1 arg2 harg2 arg3 harg3 arg4 harg4 arg5 harg5 arg6 harg6 hc0 x0 x1 xs0 xs1)]
  unfold kernelRun0_B
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

theorem sacc1_B (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : ¬cond0_0 i)
    (x0 : Vec F S96x4096 .f32) (x1 : Vec F S96x4096 .f32) (xs0 : Vec F S96x64 .f32) (xs1 : Vec F S96x64 .f32) :
    sout0_B_1 c i arg1 harg1 arg2 harg2 arg3 harg3 arg4 harg4 arg5 harg5 arg6 harg6 hc0 x0 x1 xs0 xs1 = histUpTo binIds (k0_pay48 (k0_pay46 x1) k0_pay47) xs1 64 := by
  unfold sout0_B_1
  rw [View.read_writes_eq_canon _ _ _ (scover0_B_1 c i arg1 harg1 arg2 harg2 arg3 harg3 arg4 harg4 arg5 harg5 arg6 harg6 hc0 x0 x1 xs0 xs1)]
  unfold kernelRun0_B
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

theorem outb2_B (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : ¬cond0_0 i)
    (x0 : Vec F S96x4096 .f32) (x1 : Vec F S96x4096 .f32) (xs0 : Vec F S96x64 .f32) (xs1 : Vec F S96x64 .f32) :
    out0_B_2 c i arg1 harg1 arg2 harg2 arg3 harg3 arg4 harg4 arg5 harg5 arg6 harg6 hc0 x0 x1 xs0 xs1 = histUpTo binIds (k0_pay4 x0) xs0 64 := by
  unfold out0_B_2
  rw [View.read_writes_eq_canon _ _ _ (cover0_B_2 c i arg1 harg1 arg2 harg2 arg3 harg3 arg4 harg4 arg5 harg5 arg6 harg6 hc0 x0 x1 xs0 xs1)]
  unfold kernelRun0_B
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

theorem outb3_B (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : ¬cond0_0 i)
    (x0 : Vec F S96x4096 .f32) (x1 : Vec F S96x4096 .f32) (xs0 : Vec F S96x64 .f32) (xs1 : Vec F S96x64 .f32) :
    out0_B_3 c i arg1 harg1 arg2 harg2 arg3 harg3 arg4 harg4 arg5 harg5 arg6 harg6 hc0 x0 x1 xs0 xs1 = histUpTo binIds (k0_pay48 (k0_pay46 x1) k0_pay47) xs1 64 := by
  unfold out0_B_3
  rw [View.read_writes_eq_canon _ _ _ (cover0_B_3 c i arg1 harg1 arg2 harg2 arg3 harg3 arg4 harg4 arg5 harg5 arg6 harg6 hc0 x0 x1 xs0 xs1)]
  unfold kernelRun0_B
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

/-! ## The first point -/

theorem sacc0_A (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : cond0_0 i)
    (x0 : Vec F S96x4096 .f32) (x1 : Vec F S96x4096 .f32) :
    sout0_A_0 c i arg1 harg1 arg2 harg2 arg3 harg3 arg4 harg4 arg5 harg5 arg6 harg6 hc0 x0 x1 = histUpTo binIds (k0_pay4 x0) k0_pay2 64 := by
  unfold sout0_A_0
  rw [View.read_writes_eq_canon _ _ _ (scover0_A_0 c i arg1 harg1 arg2 harg2 arg3 harg3 arg4 harg4 arg5 harg5 arg6 harg6 hc0 x0 x1)]
  unfold kernelRun0_A
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

theorem sacc1_A (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : cond0_0 i)
    (x0 : Vec F S96x4096 .f32) (x1 : Vec F S96x4096 .f32) :
    sout0_A_1 c i arg1 harg1 arg2 harg2 arg3 harg3 arg4 harg4 arg5 harg5 arg6 harg6 hc0 x0 x1 = histUpTo binIds (k0_pay48 (k0_pay46 x1) k0_pay47) k0_pay3 64 := by
  unfold sout0_A_1
  rw [View.read_writes_eq_canon _ _ _ (scover0_A_1 c i arg1 harg1 arg2 harg2 arg3 harg3 arg4 harg4 arg5 harg5 arg6 harg6 hc0 x0 x1)]
  unfold kernelRun0_A
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

theorem outb2_A (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : cond0_0 i)
    (x0 : Vec F S96x4096 .f32) (x1 : Vec F S96x4096 .f32) :
    out0_A_2 c i arg1 harg1 arg2 harg2 arg3 harg3 arg4 harg4 arg5 harg5 arg6 harg6 hc0 x0 x1 = histUpTo binIds (k0_pay4 x0) k0_pay2 64 := by
  unfold out0_A_2
  rw [View.read_writes_eq_canon _ _ _ (cover0_A_2 c i arg1 harg1 arg2 harg2 arg3 harg3 arg4 harg4 arg5 harg5 arg6 harg6 hc0 x0 x1)]
  unfold kernelRun0_A
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

theorem outb3_A (c : Dev nD) (i : grid0.Coords) (arg1 : Memref sig .tc .vmem S96x4096 .f32) (harg1 : arg1.IsWhole) (arg2 : Memref sig .tc .vmem S96x4096 .f32) (harg2 : arg2.IsWhole) (arg3 : Memref sig .tc .vmem S96x64 .f32) (harg3 : arg3.IsWhole) (arg4 : Memref sig .tc .vmem S96x64 .f32) (harg4 : arg4.IsWhole) (arg5 : Memref sig .tc .vmem S96x64 .f32) (harg5 : arg5.IsWhole) (arg6 : Memref sig .tc .vmem S96x64 .f32) (harg6 : arg6.IsWhole) (hc0 : cond0_0 i)
    (x0 : Vec F S96x4096 .f32) (x1 : Vec F S96x4096 .f32) :
    out0_A_3 c i arg1 harg1 arg2 harg2 arg3 harg3 arg4 harg4 arg5 harg5 arg6 harg6 hc0 x0 x1 = histUpTo binIds (k0_pay48 (k0_pay46 x1) k0_pay47) k0_pay3 64 := by
  unfold out0_A_3
  rw [View.read_writes_eq_canon _ _ _ (cover0_A_3 c i arg1 harg1 arg2 harg2 arg3 harg3 arg4 harg4 arg5 harg5 arg6 harg6 hc0 x0 x1)]
  unfold kernelRun0_A
  dsimp only
  sl_unfold_words
  first
    | rw [View.canon_unit_zero hz]
    | rw [View.canon_cons_unit_zero (S := S96x64) hz]
  simp only [View.readAt_eq_ld, harg1.read_unread, harg2.read_unread, harg5.read_unread, harg6.read_unread, View.ld_unit_zero (S := S96x4096) hz, View.ld_unit_zero (S := S96x64) hz, View.readCov_cons_toLoadRect]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
  rfl

end Cert.KernelIdeal.Gen

end
-- ==== Proof.KernelAcc.lean ====
/-
  The two output arrays after the kernel's run are the counts of the specification.

  Tile `t` of an input is the samples 4096·t … 4096·t + 4095 of every row. A point adds to each accumulator, entry by
  entry, the number of its tile's samples that fall in the entry's bin, starting from zero at the first point; so after
  point `n` an accumulator holds the counts over tiles 0 … n, by induction on the point. Each output block is its
  accumulator read back, and it is written to its array once, after the last point, where the counts run over all
  sixty-four tiles: the count of the whole row.
-/
import proofs.«135669_j26886495272980_1_alg».proof.Proof.Pieces

noncomputable section

namespace Cert.KernelIdeal.Acc

open Cert.KernelIdeal Cert.KernelIdeal.Gen Cert.Hist
open Idealize.ShloMosaic Idealize.ShloMosaic.TcCoe Idealize.ShloMosaic.ValueIdx Idealize.SL.Sem

variable (m : (ℓ : Loc nD τ sig) → Buf (Elt Ideal) ℓ)

/-! ## Samples and bins -/

/-- The bin of one sample. -/
def binOf (v : EReal) : BitVec 32 := binVec (F := Ideal) (s := ⟨0, ![]⟩) (fun _ => v) ix0

/-- The bin index of an array at an index depends on the sample there alone. -/
theorem binVec_apply {s : Shape} (x : FVec Ideal s .f32) (i : s.Idx) : binVec x i = binOf (x i) := rfl

/-- The row of bin positions holds 0 … 63. -/
theorem binIds_apply (q : Fin 64) : (binIds : IVec Sbin 32) (ix2 (0 : Fin 1) q) = BitVec.ofNat 32 q.val := by
  show BitVec.ofNat 32 (0 * 64 + q.val) = _
  rw [Nat.zero_mul, Nat.zero_add]

/-- The zero accumulator is zero. -/
theorem zeroAcc_apply (j : Sacc.Idx) : (zeroAcc : FVec Ideal Sacc .f32) j = 0 := Ideal.ofBits_zero_f32

/-- The two inputs as the region finds them, and their tiles at a point. -/
abbrev X0 (c : Dev nD) : FVec Ideal Sflat .f32 := V m c main_v0
abbrev X1 (c : Dev nD) : FVec Ideal Sflat .f32 := V m c main_v1
abbrev tile0 (c : Dev nD) (t : Fin cfg0.N) : FVec Ideal Sblk .f32 := iblk m c 0 t
abbrev tile1 (c : Dev nD) (t : Fin cfg0.N) : FVec Ideal Sblk .f32 := iblk m c 1 t

theorem lt64 (t : Fin cfg0.N) : t.val < 64 := lt_of_lt_of_eq t.isLt N_0

/-- Sample `e` of row `r` of tile `t` is sample 4096·t + e of row `r`. -/
theorem tile0_apply (c : Dev nD) (t : Fin cfg0.N) (r : Fin 96) (e : Fin 4096) :
    tile0 m c t (ix2 r e) = X0 m c (tileIx r ⟨t.val, lt64 t⟩ e) := by
  have hi : win0_0.index t 0 = 0 ∧ win0_0.index t 1 = t.val :=
    (by decide +kernel : ∀ t : Fin grid0.N, win0_0.index t 0 = 0 ∧ win0_0.index t 1 = t.val) t
  show iblk m c 0 t (ix2 r e) = _
  unfold iblk
  rw [View.read_apply]
  show V m c main_v0 _ = V m c main_v0 _
  congr 1
  funext a
  apply Fin.ext
  match a with
  | ⟨0, _⟩ => show win0_0.index t 0 * 96 + 1 * r.val = r.val; rw [hi.1]; omega
  | ⟨1, _⟩ => show win0_0.index t 1 * 4096 + 1 * e.val = 4096 * t.val + e.val; rw [hi.2]; omega

theorem tile1_apply (c : Dev nD) (t : Fin cfg0.N) (r : Fin 96) (e : Fin 4096) :
    tile1 m c t (ix2 r e) = X1 m c (tileIx r ⟨t.val, lt64 t⟩ e) := by
  have hi : win0_1.index t 0 = 0 ∧ win0_1.index t 1 = t.val :=
    (by decide +kernel : ∀ t : Fin grid0.N, win0_1.index t 0 = 0 ∧ win0_1.index t 1 = t.val) t
  show iblk m c 1 t (ix2 r e) = _
  unfold iblk
  rw [View.read_apply]
  show V m c main_v1 _ = V m c main_v1 _
  congr 1
  funext a
  apply Fin.ext
  match a with
  | ⟨0, _⟩ => show win0_1.index t 0 * 96 + 1 * r.val = r.val; rw [hi.1]; omega
  | ⟨1, _⟩ => show win0_1.index t 1 * 4096 + 1 * e.val = 4096 * t.val + e.val; rw [hi.2]; omega

/-- How many samples of row `r` in tile `s` fall in bin `q` (zero for `s` past the last tile). -/
def part (X : FVec Ideal Sflat .f32) (r : Fin 96) (q : Fin 64) (s : Nat) : EReal :=
  if h : s < 64 then ∑ e : Fin 4096, if binVec X (tileIx r ⟨s, h⟩ e) = BitVec.ofNat 32 q.val then (1 : EReal) else 0 else 0

/-- The sixty-four bin updates over a tile whose samples are tile `s` of `X` add that tile's counts. -/
theorem hist_tile (X : FVec Ideal Sflat .f32) (x : FVec Ideal Sblk .f32) (s : Nat) (hs : s < 64)
    (hx : ∀ (r : Fin 96) (e : Fin 4096), x (ix2 r e) = X (tileIx r ⟨s, hs⟩ e))
    (acc : FVec Ideal Sacc .f32) (r : Fin 96) (q : Fin 64) :
    histUpTo (F := Ideal) binIds (binVec (F := Ideal) x) acc 64 (ix2 r q) = acc (ix2 r q) + part X r q s := by
  rw [hist64_apply binIds binIds_apply, part, dif_pos hs]
  congr 1
  refine Finset.sum_congr rfl fun e _ => ?_
  rw [binVec_apply, binVec_apply, hx]

/-! ## What a point leaves, by the kind of point -/

theorem accA0 (c : Dev nD) (t : Fin cfg0.N) (h0 : t.val % 64 = 0) :
    (outsAt0 m c t.val t.isLt).2.2.1 = histUpTo (F := Ideal) binIds (binVec (F := Ideal) (tile0 m c t)) (zeroAcc (F := Ideal)) 64 := by
  rw [outsAt0_A m c t h0]
  dsimp only
  refine (sacc0_A (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) ((hcond0_0 t).mpr h0) (iblk m c 0 t) (iblk m c 1 t)).trans ?_
  rw [idx0_eq, zero0_eq]

theorem accA1 (c : Dev nD) (t : Fin cfg0.N) (h0 : t.val % 64 = 0) :
    (outsAt0 m c t.val t.isLt).2.2.2 = histUpTo (F := Ideal) binIds (binVec (F := Ideal) (tile1 m c t)) (zeroAcc (F := Ideal)) 64 := by
  rw [outsAt0_A m c t h0]
  dsimp only
  refine (sacc1_A (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) ((hcond0_0 t).mpr h0) (iblk m c 0 t) (iblk m c 1 t)).trans ?_
  rw [idx1_eq, zero1_eq]

theorem outA2 (c : Dev nD) (t : Fin cfg0.N) (h0 : t.val % 64 = 0) :
    (outsAt0 m c t.val t.isLt).1 = histUpTo (F := Ideal) binIds (binVec (F := Ideal) (tile0 m c t)) (zeroAcc (F := Ideal)) 64 := by
  rw [outsAt0_A m c t h0]
  dsimp only
  refine (outb2_A (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) ((hcond0_0 t).mpr h0) (iblk m c 0 t) (iblk m c 1 t)).trans ?_
  rw [idx0_eq, zero0_eq]

theorem outA3 (c : Dev nD) (t : Fin cfg0.N) (h0 : t.val % 64 = 0) :
    (outsAt0 m c t.val t.isLt).2.1 = histUpTo (F := Ideal) binIds (binVec (F := Ideal) (tile1 m c t)) (zeroAcc (F := Ideal)) 64 := by
  rw [outsAt0_A m c t h0]
  dsimp only
  refine (outb3_A (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) ((hcond0_0 t).mpr h0) (iblk m c 0 t) (iblk m c 1 t)).trans ?_
  rw [idx1_eq, zero1_eq]

/-- The point before `t`, as a bound. -/
theorem pred_lt (t : Fin cfg0.N) : t.val - 1 < cfg0.N := Nat.lt_of_le_of_lt (Nat.sub_le _ _) t.isLt

theorem accB0 (c : Dev nD) (t : Fin cfg0.N) (h0 : ¬t.val % 64 = 0) :
    (outsAt0 m c t.val t.isLt).2.2.1
      = histUpTo (F := Ideal) binIds (binVec (F := Ideal) (tile0 m c t)) (outsAt0 m c (t.val - 1) (pred_lt t)).2.2.1 64 := by
  rw [outsAt0_B m c t h0]
  dsimp only
  refine (sacc0_B (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) (iblk m c 0 t) (iblk m c 1 t)
    (outsAt0 m c (t.val - 1) (pred_lt t)).2.2.1 (outsAt0 m c (t.val - 1) (pred_lt t)).2.2.2).trans ?_
  rw [idx0_eq]

theorem accB1 (c : Dev nD) (t : Fin cfg0.N) (h0 : ¬t.val % 64 = 0) :
    (outsAt0 m c t.val t.isLt).2.2.2
      = histUpTo (F := Ideal) binIds (binVec (F := Ideal) (tile1 m c t)) (outsAt0 m c (t.val - 1) (pred_lt t)).2.2.2 64 := by
  rw [outsAt0_B m c t h0]
  dsimp only
  refine (sacc1_B (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) (iblk m c 0 t) (iblk m c 1 t)
    (outsAt0 m c (t.val - 1) (pred_lt t)).2.2.1 (outsAt0 m c (t.val - 1) (pred_lt t)).2.2.2).trans ?_
  rw [idx1_eq]

theorem outB2 (c : Dev nD) (t : Fin cfg0.N) (h0 : ¬t.val % 64 = 0) :
    (outsAt0 m c t.val t.isLt).1
      = histUpTo (F := Ideal) binIds (binVec (F := Ideal) (tile0 m c t)) (outsAt0 m c (t.val - 1) (pred_lt t)).2.2.1 64 := by
  rw [outsAt0_B m c t h0]
  dsimp only
  refine (outb2_B (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) (iblk m c 0 t) (iblk m c 1 t)
    (outsAt0 m c (t.val - 1) (pred_lt t)).2.2.1 (outsAt0 m c (t.val - 1) (pred_lt t)).2.2.2).trans ?_
  rw [idx0_eq]

theorem outB3 (c : Dev nD) (t : Fin cfg0.N) (h0 : ¬t.val % 64 = 0) :
    (outsAt0 m c t.val t.isLt).2.1
      = histUpTo (F := Ideal) binIds (binVec (F := Ideal) (tile1 m c t)) (outsAt0 m c (t.val - 1) (pred_lt t)).2.2.2 64 := by
  rw [outsAt0_B m c t h0]
  dsimp only
  refine (outb3_B (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) (iblk m c 0 t) (iblk m c 1 t)
    (outsAt0 m c (t.val - 1) (pred_lt t)).2.2.1 (outsAt0 m c (t.val - 1) (pred_lt t)).2.2.2).trans ?_
  rw [idx1_eq]

/-- Each output block is its accumulator read back. -/
theorem out2_eq_acc0 (c : Dev nD) (t : Fin cfg0.N) : (outsAt0 m c t.val t.isLt).1 = (outsAt0 m c t.val t.isLt).2.2.1 := by
  by_cases h0 : t.val % 64 = 0
  · rw [outA2 m c t h0, accA0 m c t h0]
  · rw [outB2 m c t h0, accB0 m c t h0]

theorem out3_eq_acc1 (c : Dev nD) (t : Fin cfg0.N) : (outsAt0 m c t.val t.isLt).2.1 = (outsAt0 m c t.val t.isLt).2.2.2 := by
  by_cases h0 : t.val % 64 = 0
  · rw [outA3 m c t h0, accA1 m c t h0]
  · rw [outB3 m c t h0, accB1 m c t h0]

/-! ## The accumulation -/

/-- After point `n` the first accumulator holds the counts over tiles 0 … n of the first input. -/
theorem acc0_eq (c : Dev nD) : ∀ (n : ℕ) (h : n < cfg0.N) (r : Fin 96) (q : Fin 64),
    (outsAt0 m c n h).2.2.1 (ix2 r q) = ∑ s ∈ Finset.range (n + 1), part (X0 m c) r q s
  | 0, h, r, q => by
    have e := accA0 m c ⟨0, h⟩ rfl
    rw [show (outsAt0 m c 0 h).2.2.1 = _ from e,
      hist_tile (X0 m c) (tile0 m c ⟨0, h⟩) 0 (by omega) (fun r e => tile0_apply m c ⟨0, h⟩ r e) zeroAcc r q,
      zeroAcc_apply, zero_add, Finset.sum_range_one]
  | n + 1, h, r, q => by
    have h64 : n + 1 < 64 := lt_of_lt_of_eq h N_0
    have hB : ¬(⟨n + 1, h⟩ : Fin cfg0.N).val % 64 = 0 := by dsimp only; omega
    have e := accB0 m c ⟨n + 1, h⟩ hB
    rw [show (outsAt0 m c (n + 1) h).2.2.1 = _ from e,
      hist_tile (X0 m c) (tile0 m c ⟨n + 1, h⟩) (n + 1) h64 (fun r e => tile0_apply m c ⟨n + 1, h⟩ r e) _ r q]
    show (outsAt0 m c n _).2.2.1 (ix2 r q) + _ = _
    rw [acc0_eq c n (Nat.lt_of_succ_lt h) r q, Finset.sum_range_succ _ (n + 1)]

/-- After point `n` the second accumulator holds the counts over tiles 0 … n of the second input. -/
theorem acc1_eq (c : Dev nD) : ∀ (n : ℕ) (h : n < cfg0.N) (r : Fin 96) (q : Fin 64),
    (outsAt0 m c n h).2.2.2 (ix2 r q) = ∑ s ∈ Finset.range (n + 1), part (X1 m c) r q s
  | 0, h, r, q => by
    have e := accA1 m c ⟨0, h⟩ rfl
    rw [show (outsAt0 m c 0 h).2.2.2 = _ from e,
      hist_tile (X1 m c) (tile1 m c ⟨0, h⟩) 0 (by omega) (fun r e => tile1_apply m c ⟨0, h⟩ r e) zeroAcc r q,
      zeroAcc_apply, zero_add, Finset.sum_range_one]
  | n + 1, h, r, q => by
    have h64 : n + 1 < 64 := lt_of_lt_of_eq h N_0
    have hB : ¬(⟨n + 1, h⟩ : Fin cfg0.N).val % 64 = 0 := by dsimp only; omega
    have e := accB1 m c ⟨n + 1, h⟩ hB
    rw [show (outsAt0 m c (n + 1) h).2.2.2 = _ from e,
      hist_tile (X1 m c) (tile1 m c ⟨n + 1, h⟩) (n + 1) h64 (fun r e => tile1_apply m c ⟨n + 1, h⟩ r e) _ r q]
    show (outsAt0 m c n _).2.2.2 (ix2 r q) + _ = _
    rw [acc1_eq c n (Nat.lt_of_succ_lt h) r q, Finset.sum_range_succ _ (n + 1)]

/-- The counts over all sixty-four tiles are the counts of the row. -/
theorem sum_part (X : FVec Ideal Sflat .f32) (r : Fin 96) (q : Fin 64) :
    ∑ s ∈ Finset.range 64, part X r q s = cntAt X r q := by
  rw [Finset.sum_range, cntAt]
  refine Finset.sum_congr rfl fun s _ => ?_
  rw [part, dif_pos s.isLt]

/-- The last point. -/
abbrev tLast : Fin cfg0.N := ⟨63, by rw [show cfg0.N = 64 from N_0]; decide⟩

theorem last_acc0 (c : Dev nD) : (outsAt0 m c 63 tLast.isLt).2.2.1 = cnt (X0 m c) := by
  funext j
  obtain ⟨r, q, rfl⟩ : ∃ (r : Fin 96) (q : Fin 64), j = ix2 r q := ⟨j 0, j 1, eq_ix2 j⟩
  rw [acc0_eq m c 63 tLast.isLt r q, sum_part]
  rfl

theorem last_acc1 (c : Dev nD) : (outsAt0 m c 63 tLast.isLt).2.2.2 = cnt (X1 m c) := by
  funext j
  obtain ⟨r, q, rfl⟩ : ∃ (r : Fin 96) (q : Fin 64), j = ix2 r q := ⟨j 0, j 1, eq_ix2 j⟩
  rw [acc1_eq m c 63 tLast.isLt r q, sum_part]
  rfl

/-! ## The write-back and the final arrays -/

/-- The one write-back of the first output, after the last point, writes the first input's counts: block (0, 0) of the
    96 × 64 array, read through zero offsets, is the array. -/
theorem flushed2_eq (c : Dev nD) (t : Fin cfg0.N) (hf : (cfg0.win 2).flush t = true) :
    (dats m 0 c).flushed 2 t = ((cfg0.win 2).blk t).view.read (Elt Ideal) (cnt (X0 m c)) := by
  have h63 : t.val = 63 := by have := (flush0_2 t).mp hf; have := lt64 t; omega
  obtain rfl : t = tLast := Fin.ext h63
  show (cfg0.win 2).cut (grid0.coords tLast) ((dats m 0 c).after 2 tLast) = _
  rw [after0_2, out2_eq_acc0 m c tLast]
  show (outsAt0 m c 63 tLast.isLt).2.2.1 = _
  rw [last_acc0]
  have hz' : (fun a => win0_2.index tLast a * main_v2_0.ty.shape.size a) = fun _ => 0 := funext fun a => by fin_cases a <;> decide +kernel
  exact (Memref.read_access_unit_zero (Elt Ideal) main_v2_0 hz' (fun a => by rw [congrFun hz' a]; simp) (cnt (X0 m c))).symm

theorem flushed3_eq (c : Dev nD) (t : Fin cfg0.N) (hf : (cfg0.win 3).flush t = true) :
    (dats m 0 c).flushed 3 t = ((cfg0.win 3).blk t).view.read (Elt Ideal) (cnt (X1 m c)) := by
  have h63 : t.val = 63 := by have := (flush0_3 t).mp hf; have := lt64 t; omega
  obtain rfl : t = tLast := Fin.ext h63
  show (cfg0.win 3).cut (grid0.coords tLast) ((dats m 0 c).after 3 tLast) = _
  rw [after0_3, out3_eq_acc1 m c tLast]
  show (outsAt0 m c 63 tLast.isLt).2.2.2 = _
  rw [last_acc1]
  have hz' : (fun a => win0_3.index tLast a * main_v2_1.ty.shape.size a) = fun _ => 0 := funext fun a => by fin_cases a <;> decide +kernel
  exact (Memref.read_access_unit_zero (Elt Ideal) main_v2_1 hz' (fun a => by rw [congrFun hz' a]; simp) (cnt (X1 m c))).symm

/-- The first output array ends at the first input's counts: the last point's block covers it. -/
theorem final2 (c : Dev nD) : (dats m 0 c).arrAt 2 cfg0.N = cnt (V m c main_v0) :=
  (dats m 0 c).arrAt_eq_of_cover 2 (cnt (X0 m c)) (flushed2_eq m c) fun i =>
    ⟨tLast, (flush0_2 tLast).mpr rfl, by
      show i ∈ ((View.whole main_v2_0).slice (win0_2.rect tLast)).set
      rw [View.set_slice_whole, Rect.mem_set_unit]
      intro a
      have h0 : (i 0 : Nat) < 96 := (i 0).isLt
      have h1 : (i 1 : Nat) < 64 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 96 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 64 from by decide +kernel]; omega⟩

/-- The second output array ends at the second input's counts. -/
theorem final3 (c : Dev nD) : (dats m 0 c).arrAt 3 cfg0.N = cnt (V m c main_v1) :=
  (dats m 0 c).arrAt_eq_of_cover 3 (cnt (X1 m c)) (flushed3_eq m c) fun i =>
    ⟨tLast, (flush0_3 tLast).mpr rfl, by
      show i ∈ ((View.whole main_v2_1).slice (win0_3.rect tLast)).set
      rw [View.set_slice_whole, Rect.mem_set_unit]
      intro a
      have h0 : (i 0 : Nat) < 96 := (i 0).isLt
      have h1 : (i 1 : Nat) < 64 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 96 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 64 from by decide +kernel]; omega⟩

end Cert.KernelIdeal.Acc

end
-- ==== Proof.KernelValue.lean ====
/-
  The kernel's run ends with its result at the specification's loss of the two arguments' counts.
-/
import proofs.«135669_j26886495272980_1_alg».proof.Proof.KernelAcc
import Idealize.ShloMosaic.Lib.StableHlo.Run
import Idealize.ShloMosaic.Lib.Pipeline.Value
import Idealize.ShloMosaic.PureOps.Ideal.Laws

noncomputable section

namespace Cert.KernelIdeal.Value

open Cert.KernelIdeal Cert.KernelIdeal.Gen Cert.KernelIdeal.Acc Cert.Hist
open Idealize.ShloMosaic Idealize.ShloMosaic.TcCoe Idealize.ShloMosaic.ValueIdx Idealize.SL.Sem

variable (m : (ℓ : Loc nD τ sig) → Buf (Elt Ideal) ℓ) (ρ : Dev nD → PrngReg)

/-- One count array normalized: every entry divided by the larger of the small constant and its row's total, as the
    operations after the region compute it (a row sum, two broadcasts, a maximum, a quotient). -/
def normed (C : FVec Ideal S96x64 .f32) : FVec Ideal S96x64 .f32 :=
  Host.divf (F := Ideal) C
    (broadcastInDim S96x64 ![0, 1] bcast_S96x1_S96x64_0_1
      (maximumf
        (broadcastInDim S96x1 ![] bcast_S_S96x1 (constant (F := Ideal) S_ .f32 0x322BCC77#32))
        (broadcastInDim S96x1 ![0] bcast_S96_S96x1_0
          (Host.reduceAdd (F := Ideal) C (constant (F := Ideal) S_ .f32 0x00000000#32) reducesTo_S96x64_S96_d1 h_S_))))

/-- The operations after the region as one function of the two count arrays: normalize both, subtract, take absolute
    values, sum everything, divide by the number of entries. -/
def tail (Cf Cr : FVec Ideal S96x64 .f32) : FVec Ideal S_ .f32 :=
  Host.divf (F := Ideal)
    (Host.reduceAdd (F := Ideal) (Host.absf (F := Ideal) (subf (normed Cf) (normed Cr)))
      (constant (F := Ideal) S_ .f32 0x00000000#32) reducesTo_S96x64_S_d0_1 h_S_)
    (constant (F := Ideal) S_ .f32 0x45C00000#32)

/-- The row sum at row `r`: the initial value plus the sum of the row's 64 entries. -/
theorem rowSum_apply (C : FVec Ideal S96x64 .f32) (r : Fin 96) :
    Host.reduceAdd (F := Ideal) C (constant (F := Ideal) S_ .f32 0x00000000#32) reducesTo_S96x64_S96_d1 h_S_ (ix1 r)
      = Ideal.ofBits .f32 0x00000000#32 + ∑ k : Fin 64, C (ix2 r k) := by
  simp only [Host.reduceAdd, Ideal.hostReduceAdd_def]
  rw [Ideal.hostReduceAdd_single reducesTo_S96x64_S96_d1 (by decide)]
  refine congrArg₂ (· + ·) rfl (Finset.sum_congr rfl fun k _ => ?_)
  exact congrArg C (funext fun a => Fin.ext (by match a with | ⟨0, _⟩ => rfl | ⟨1, _⟩ => rfl))

/-- The normalized array at an entry is the specification's `rowNorm` there. -/
theorem normed_apply (C : FVec Ideal S96x64 .f32) (r : Fin 96) (q : Fin 64) : normed C (ix2 r q) = rowNorm C (ix2 r q) := by
  unfold normed rowNorm
  show Ideal.div (C (ix2 r q)) (broadcastInDim S96x64 _ bcast_S96x1_S96x64_0_1 _ (ix2 r q)) = _
  refine congrArg (Ideal.div (C (ix2 r q))) ?_
  refine (broadcastInDim_apply _ bcast_S96x1_S96x64_0_1 _ (ix2 r q) (ix2 r (0 : Fin 1)) (fun a => match a with
    | ⟨0, _⟩ => by show r.val = if (96 : Nat) = 1 then 0 else r.val; rw [if_neg (by decide)]
    | ⟨1, _⟩ => by show (0 : Nat) = if (1 : Nat) = 1 then 0 else q.val; rw [if_pos rfl])).trans ?_
  show max (broadcastInDim S96x1 _ bcast_S_S96x1 _ (ix2 r (0 : Fin 1))) (broadcastInDim S96x1 _ bcast_S96_S96x1_0 _ (ix2 r (0 : Fin 1))) = _
  refine congrArg₂ max ?_ ?_
  · exact broadcastInDim_apply _ bcast_S_S96x1 _ _ ix0 (fun a => a.elim0)
  · refine (broadcastInDim_apply _ bcast_S96_S96x1_0 _ _ (ix1 r) (fun a => match a with
      | ⟨0, _⟩ => by show r.val = if (96 : Nat) = 1 then 0 else r.val; rw [if_neg (by decide)])).trans ?_
    exact rowSum_apply C r

/-- The operations after the region compute the specification's loss of the two count arrays. -/
theorem tail_value (Cf Cr : FVec Ideal S96x64 .f32) : tail Cf Cr = fun _ => loss Cf Cr := by
  funext i
  unfold tail loss
  show Ideal.div (Host.reduceAdd (F := Ideal) _ _ reducesTo_S96x64_S_d0_1 h_S_ i) (Ideal.ofBits .f32 0x45C00000#32) = _
  refine congrArg (Ideal.div · _) ?_
  generalize hy : Host.absf (F := Ideal) (subf (normed Cf) (normed Cr)) = y
  simp only [Host.reduceAdd, Ideal.hostReduceAdd_def]
  refine (Ideal.hostReduceAdd_total reducesTo_S96x64_S_d0_1 (fun b => b.elim0) y _ i).trans ?_
  refine congrArg₂ (· + ·) rfl (Finset.sum_congr rfl fun j _ => ?_)
  subst hy
  obtain ⟨r, q, rfl⟩ : ∃ (r : Fin 96) (q : Fin 64), j = ix2 r q := ⟨j 0, j 1, eq_ix2 j⟩
  show max (normed Cf (ix2 r q) - normed Cr (ix2 r q)) (-(normed Cf (ix2 r q) - normed Cr (ix2 r q))) = _
  rw [normed_apply, normed_apply]

/-- The first window's array as the region finds it: the first argument read as 96 rows of 262144 samples. -/
theorem V_main_v0 (c : Dev nD) : (V m c main_v0 : FVec Ideal S96x262144 .f32)
    = shapeCast S96x262144 (m ((c.tc : Thread nD τ).loc main_arg0)) shapeCasts_S32x3x512x512_S96x262144 := by
  dsimp only [Gen.V, Gen.V0]
  simp only [hostOps0, List.flatten_cons, List.flatten_nil, List.append_nil]
  after_results
  rfl

/-- The second window's array as the region finds it: the second argument read the same way. -/
theorem V_main_v1 (c : Dev nD) : (V m c main_v1 : FVec Ideal S96x262144 .f32)
    = shapeCast S96x262144 (m ((c.tc : Thread nD τ).loc main_arg1)) shapeCasts_S32x3x512x512_S96x262144 := by
  dsimp only [Gen.V, Gen.V0]
  simp only [hostOps0, List.flatten_cons, List.flatten_nil, List.append_nil]
  after_results
  rfl

/-- The core's contents after the region, read at the array of window `w`: that array as the region leaves it. Stated
    for any pipeline and any proof data. -/
theorem withArrays_arrAt (cfg : Pipeline.Cfg sig Λ₀) (hinj : Function.Injective (Pipeline.arrRef cfg.spec)) (c : Dev nD)
    (V₁ : Valuation τ sig (Elt Ideal)) (dat : Pipeline.Dat τ (Elt Ideal) Unit ℕ (UR sig nD τ) ℕ cfg c) (w : Fin cfg.W) :
    Pipeline.withArrays cfg.spec c V₁ (fun w => dat.arrAt w cfg.N) (Proc.devRef .tc (Pipeline.arrRef cfg.spec w)) = dat.arrAt w cfg.N :=
  Pipeline.withArrays_arr _ hinj c V₁ _ w

/-- The lines after the region, run from ANY contents `W` of the core's buffers, leave in the result buffer the tail of
    the two buffers the region wrote its counts to. -/
theorem after_tail (W : Valuation τ sig (Elt Ideal)) :
    StableHlo.after (List.flatten [hostOps1, hostOps1_1, hostOps1_2, hostOps1_3, hostOps1_4]) W (Proc.devRef .tc main_v16)
      = tail (W (Proc.devRef .tc main_v2_0)) (W (Proc.devRef .tc main_v2_1)) := by
  simp only [hostOps1, hostOps1_1, hostOps1_2, hostOps1_3, hostOps1_4, List.flatten_cons, List.flatten_nil, List.append_nil, List.cons_append, List.nil_append]
  after_results
  rfl

theorem run : θ_run defs (onTc (τ := τ) (main (F := Ideal))) ⟨m, fun _ => 0, ρ⟩ (fun r => ∀ c : Dev nD,
    r.2.mem ((c.tc : Thread nD τ).loc main_v16)
        = (fun _ => loss (cnt (shapeCast S96x262144 (m ((c.tc : Thread nD τ).loc main_arg0)) shapeCasts_S32x3x512x512_S96x262144))
            (cnt (shapeCast S96x262144 (m ((c.tc : Thread nD τ).loc main_arg1)) shapeCasts_S32x3x512x512_S96x262144)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v16 (Pipeline.mem_restRefs_of main_v16 (by decide) (by decide))).trans ?_
    unfold Pipeline.afterTail₀
    refine (after_tail _).trans ?_
    refine (congrArg₂ tail ?_ ?_).trans (tail_value _ _)
    · exact (withArrays_arrAt (cfgs 0) launch0.win.arr_inj c (V0 m c) (dats m 0 c) 2).trans ((final2 m c).trans (congrArg cnt (V_main_v0 m c)))
    · exact (withArrays_arrAt (cfgs 0) launch0.win.arr_inj c (V0 m c) (dats m 0 c) 3).trans ((final3 m c).trans (congrArg cnt (V_main_v1 m c)))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Value

end
-- ==== Proof.LibScatterFlat.lean ====
/-
  An accumulating scatter along one axis, read at a slot.

  With update `j` of `k` sent to the slot of an `n`-element array that the `j`-th index word names — one scatter index per
  update, no window — the exact scatter-add leaves in slot `i` the slot's old value plus the sum of the updates whose word,
  read as a signed integer, is `i`; a word that names no slot drops its update.
-/
import Idealize.ShloMosaic.PureOps.Ideal
import Idealize.ShloMosaic.PureOps.Dims
import Idealize.ShloMosaic.Lib.ValueIdx

noncomputable section

namespace Cert.Hist

open Idealize.ShloMosaic Idealize.ShloMosaic.ValueIdx

/-- A rank-1 index set is its one coordinate's range. -/
def idxEquiv1 (k : Nat) : (⟨1, ![k]⟩ : Shape).Idx ≃ Fin k where
  toFun j := j 0
  invFun t := ix1 t
  left_inv j := (eq_ix1 j).symm
  right_inv _ := rfl

/-- A rank-1 index has one coordinate: read at any axis, it is the coordinate at axis 0. -/
theorem idx1_val {k : Nat} (j : (⟨1, ![k]⟩ : Shape).Idx) (a : Fin 1) : (j a).val = (j 0).val := by
  obtain rfl : a = 0 := Subsingleton.elim _ _
  rfl

/-- A one-element range has one element. -/
theorem fin1_eq (x y : Fin 1) : x = y := Subsingleton.elim x y

section
variable {n k w : Nat} (d : ScatterDims (⟨1, ![n]⟩ : Shape) (⟨2, ![k, 1]⟩ : Shape) (⟨1, ![k]⟩ : Shape))

/-- The index word update `j` reads its start from sits at row `j 0` of the `k × 1` array of scatter indices: the one
    update coordinate goes to the one axis that is not the index vector's, and the index vector has one component. -/
theorem siIdx_eq (h4 : d.indexVectorDim = 1) (j : (⟨1, ![k]⟩ : Shape).Idx) (c : Fin d.scatterDimsToOperandDims.length) :
    d.siIdx j c = ix2 (j 0) (0 : Fin 1) := by
  have e0 : (d.siIdx j c 0 : Fin k) = j 0 := by
    apply Fin.ext
    unfold ScatterDims.siIdx
    split
    · rename_i hb
      rw [h4] at hb
      exact (Nat.zero_ne_one hb).elim
    · exact idx1_val j _
  exact (eq_ix2 _).trans (congrArg₂ ix2 e0 (fin1_eq _ _))

/-- The window of update `j` starts, on the operand's one axis, at the `j`-th index word read signed. -/
theorem start_eq (h3 : d.scatterDimsToOperandDims = [0]) (h4 : d.indexVectorDim = 1)
    (j : (⟨1, ![k]⟩ : Shape).Idx) (idx : IVec (⟨2, ![k, 1]⟩ : Shape) w) (a : Fin 1) :
    d.start j idx a = (idx (ix2 (j 0) (0 : Fin 1))).toInt := by
  have ha : a ∈ d.scatterDimsToOperandDims := by
    rw [h3]; exact List.mem_singleton.2 (Subsingleton.elim _ _)
  unfold ScatterDims.start
  rw [dif_pos ha, siIdx_eq d h4]
  rfl

/-- The operand's one axis is an inserted window axis: the window coordinate on it is 0. -/
theorem window_eq (h2 : d.insertedWindowDims = [0]) (j : (⟨1, ![k]⟩ : Shape).Idx) (a : Fin 1) : d.window j a = 0 := by
  unfold ScatterDims.window
  rw [dif_neg]
  intro ha
  have hn := (List.mem_filter.1 ha).2
  rw [h2] at hn
  obtain rfl : a = 0 := Subsingleton.elim _ _
  simp at hn

/-- Update `j` lands in slot `i` exactly when its index word, read signed, is `i`. -/
theorem resultIdx?_eq_some_iff (h2 : d.insertedWindowDims = [0]) (h3 : d.scatterDimsToOperandDims = [0])
    (h4 : d.indexVectorDim = 1) (idx : IVec (⟨2, ![k, 1]⟩ : Shape) w) (j : (⟨1, ![k]⟩ : Shape).Idx) (i : Fin n) :
    d.resultIdx? j idx = some (ix1 i) ↔ (idx (ix2 (j 0) (0 : Fin 1))).toInt = (i.val : Int) := by
  have hs : ∀ a, d.start j idx a = _ := start_eq d h3 h4 j idx
  have hw : ∀ a, d.window j a = 0 := window_eq d h2 j
  unfold ScatterDims.resultIdx?
  split
  · rename_i h
    constructor
    · intro e
      have e0 : (d.start j idx 0 + (d.window j 0 : Int)).toNat = i.val :=
        congrArg (fun f => (f 0).val) (Option.some.inj e)
      have h0 := (h 0).1
      rw [hs 0, hw 0] at e0 h0
      omega
    · intro e
      refine congrArg some (funext fun a => ?_)
      obtain rfl : a = 0 := fin1_eq _ _
      apply Fin.ext
      show (d.start j idx 0 + (d.window j 0 : Int)).toNat = i.val
      rw [hs 0, hw 0, e]
      omega
  · rename_i h
    constructor
    · intro e; exact absurd e (by simp)
    · intro e
      refine absurd (fun a => ?_) h
      obtain rfl : a = 0 := fin1_eq _ _
      rw [hs 0, hw 0, e]
      have hi := i.isLt
      show 0 ≤ (i.val : Int) + ((0 : Nat) : Int) ∧ (i.val : Int) + ((0 : Nat) : Int) < (n : Int)
      omega

end

/-- `jnp.zeros(n).at[idx].add(upd)`-shaped scatter (`inserted_window_dims = [0]`, `scatter_dims_to_operand_dims = [0]`,
    `index_vector_dim = 1`, no window axes) over the extended reals, slot by slot. -/
theorem scatterAdd_flat_apply {n k w : Nat} (d : ScatterDims (⟨1, ![n]⟩ : Shape) (⟨2, ![k, 1]⟩ : Shape) (⟨1, ![k]⟩ : Shape))
    (h1 : d.updateWindowDims = []) (h2 : d.insertedWindowDims = [0]) (h3 : d.scatterDimsToOperandDims = [0])
    (h4 : d.indexVectorDim = 1)
    (x : (⟨1, ![n]⟩ : Shape).Idx → EReal) (idx : IVec (⟨2, ![k, 1]⟩ : Shape) w) (upd : (⟨1, ![k]⟩ : Shape).Idx → EReal) (i : Fin n) :
    Ideal.hostScatterAdd d x idx upd (ix1 i)
      = x (ix1 i) + ∑ j : Fin k, if (idx (ix2 j (0 : Fin 1))).toInt = (i.val : Int) then upd (ix1 j) else 0 := by
  unfold Ideal.hostScatterAdd
  congr 1
  rw [Finset.sum_filter,
    ← Equiv.sum_comp (idxEquiv1 k)
      (fun t : Fin k => if (idx (ix2 t (0 : Fin 1))).toInt = (i.val : Int) then upd (ix1 t) else 0)]
  refine Finset.sum_congr rfl (fun j _ => ?_)
  exact if_congr (resultIdx?_eq_some_iff d h2 h3 h4 idx j i) (congrArg upd (eq_ix1 j)) rfl

end Cert.Hist

end
-- ==== Proof.CountFlat.lean ====
/-
  Sums over a product of two ranges, by quotient and remainder; the counts as one sum over a whole row.
-/
import proofs.«135669_j26886495272980_1_alg».proof.Proof.Spec
import Mathlib.Algebra.BigOperators.Fin
import Mathlib.Logic.Equiv.Fin.Basic

noncomputable section

namespace Cert.Hist

open Idealize.ShloMosaic Idealize.ShloMosaic.ValueIdx

/-- A sum over `0 … a·b − 1` of a function of the quotient and the remainder by `b` is the double sum over both. -/
theorem sum_rows_cols {M : Type*} [AddCommMonoid M] {a b : Nat} (g : Fin a → Fin b → M)
    (row : Fin (a * b) → Fin a) (col : Fin (a * b) → Fin b)
    (hrow : ∀ j, (row j).val = j.val / b) (hcol : ∀ j, (col j).val = j.val % b) :
    ∑ j : Fin (a * b), g (row j) (col j) = ∑ p : Fin a, ∑ c : Fin b, g p c := by
  -- The pair (quotient, remainder) is the inverse of the bijection (p, c) ↦ c + b · p.
  have hr : ∀ j, row j = (finProdFinEquiv.symm j).1 := fun j => Fin.ext (by rw [hrow j]; rfl)
  have hc : ∀ j, col j = (finProdFinEquiv.symm j).2 := fun j => Fin.ext (by rw [hcol j]; rfl)
  calc ∑ j : Fin (a * b), g (row j) (col j)
      = ∑ j : Fin (a * b), g (finProdFinEquiv.symm j).1 (finProdFinEquiv.symm j).2 :=
        Finset.sum_congr rfl (fun j _ => by rw [hr j, hc j])
    _ = ∑ x : Fin a × Fin b, g x.1 x.2 :=
        Equiv.sum_comp finProdFinEquiv.symm (fun x : Fin a × Fin b => g x.1 x.2)
    _ = ∑ p : Fin a, ∑ c : Fin b, g p c := Fintype.sum_prod_type (fun x : Fin a × Fin b => g x.1 x.2)

/-- The number of samples of row `r` in bin `q`, as one sum over the row's 262144 samples. -/
theorem cntAt_eq_flat (X : FVec Ideal Sflat .f32) (r : Fin 96) (q : Fin 64) :
    cntAt X r q = ∑ e : Fin 262144, if binVec X (ix2 r e) = BitVec.ofNat 32 q.val then (1 : EReal) else 0 := by
  -- Position E of a row is position E % 4096 of tile E / 4096, since 4096 · (E / 4096) + E % 4096 = E.
  have key := sum_rows_cols (a := 64) (b := 4096)
    (fun s e => if binVec X (tileIx r s e) = BitVec.ofNat 32 q.val then (1 : EReal) else 0)
    (fun E => ⟨E.val / 4096, by have := E.isLt; omega⟩)
    (fun E => ⟨E.val % 4096, Nat.mod_lt _ (by norm_num)⟩)
    (fun _ => rfl) (fun _ => rfl)
  refine Eq.trans key.symm ?_
  refine Finset.sum_congr rfl (fun E _ => ?_)
  have hix : tileIx r ⟨E.val / 4096, by have := E.isLt; omega⟩ ⟨E.val % 4096, Nat.mod_lt _ (by norm_num)⟩
      = ix2 r E := congrArg (ix2 r) (Fin.ext (Nat.div_add_mod E.val 4096))
  rw [hix]

end Cert.Hist

end
-- ==== Proof.RefCounts.lean ====
/-
  The reference's two count arrays are the counts of the specification.

  The reference computes, for every sample, the word `bin + 64 · row` (the bin index clamped to 0 … 63, the row below 96),
  flattens the 96 × 262144 words to one list, and adds a one into slot `word` of a zeroed array of 6144 slots; the result
  is reshaped to 96 × 64. Since `0 ≤ bin ≤ 63`, the word `bin + 64 · row` is `64 · r + q` exactly when `row = r` and
  `bin = q`: so slot `64 · r + q` receives one update from each sample of row `r` whose bin is `q`, and nothing from any
  other row. Summing the flat list by rows and columns turns this into the specification's count of row `r`, bin `q`.
  The reference's bin differs from the specification's in one place only: it divides by one where the specification
  multiplies by one.
-/
import proofs.«135669_j26886495272980_1_alg».proof.Proof.Gen.ReferenceIdeal.Read
import proofs.«135669_j26886495272980_1_alg».proof.Proof.Spec
import proofs.«135669_j26886495272980_1_alg».proof.Proof.LibScatterFlat
import proofs.«135669_j26886495272980_1_alg».proof.Proof.CountFlat
import Idealize.ShloMosaic.Lib.IdealHost

noncomputable section

namespace Cert.ReferenceIdeal.Counts

open Cert.ReferenceIdeal Cert.ReferenceIdeal.Gen Cert.ReferenceIdeal.Read Cert.Hist
open Idealize.ShloMosaic Idealize.ShloMosaic.TcCoe Idealize.ShloMosaic.ValueIdx

/-! ## Words -/

/-- A word clamped below by 0 and then above by 63, read signed, lies in 0 … 63. -/
theorem clamp_range (v : BitVec 32) :
    0 ≤ (IntOp.minsi 63#32 (IntOp.maxsi 0#32 v)).toInt ∧ (IntOp.minsi 63#32 (IntOp.maxsi 0#32 v)).toInt ≤ 63 := by
  have h63 : (63#32 : BitVec 32).toInt = 63 := by decide
  have h0 : (0#32 : BitVec 32).toInt = 0 := by decide
  unfold IntOp.minsi IntOp.maxsi
  simp only [BitVec.slt_eq_decide, decide_eq_true_eq]
  split_ifs <;> simp only [h0, h63] at * <;> omega

/-- A word whose signed reading is in 0 … 63 has that same unsigned reading. -/
theorem toNat_of_range (b : BitVec 32) (hb : 0 ≤ b.toInt ∧ b.toInt ≤ 63) :
    b.toNat ≤ 63 ∧ b.toInt = (b.toNat : Int) := by
  have h := BitVec.toInt_eq_toNat_cond b
  have hlt := b.isLt
  simp only [Nat.reducePow] at h hlt
  split_ifs at h <;> omega

/-- `b + p · 64` does not wrap for `0 ≤ b ≤ 63` and `p < 96`: read signed it is the integer `b + 64 p`. -/
theorem word_toInt (b : BitVec 32) (hb : 0 ≤ b.toInt ∧ b.toInt ≤ 63) (p : Nat) (hp : p < 96) :
    (IntOp.addi b (IntOp.muli (BitVec.ofNat 32 p) 64#32)).toInt = b.toInt + 64 * (p : Int) := by
  obtain ⟨hn, he⟩ := toNat_of_range b hb
  unfold IntOp.addi IntOp.muli
  rw [BitVec.toInt_eq_toNat_cond, he]
  simp only [BitVec.toNat_add, BitVec.toNat_mul, BitVec.toNat_ofNat, Nat.reducePow, Nat.reduceMod]
  split_ifs <;> omega

/-- The word `b + p · 64` names slot `64 r + q` (`q < 64`) exactly when `p = r` and `b = q`: quotient and remainder by 64. -/
theorem word_eq_iff (b : BitVec 32) (hb : 0 ≤ b.toInt ∧ b.toInt ≤ 63) (p : Nat) (hp : p < 96) (r q : Nat) (hr : r < 96)
    (hq : q < 64) :
    (IntOp.addi b (IntOp.muli (BitVec.ofNat 32 p) 64#32)).toInt = ((r * 64 + q : Nat) : Int)
      ↔ p = r ∧ b = BitVec.ofNat 32 q := by
  rw [word_toInt b hb p hp]
  obtain ⟨hn, he⟩ := toNat_of_range b hb
  rw [← BitVec.toNat_inj, BitVec.toNat_ofNat, he]
  simp only [Nat.reducePow]
  constructor
  · intro h; omega
  · rintro ⟨h1, h2⟩; omega

/-! ## One sample's bin -/

/-- Dividing by the f32 one is multiplying by it. -/
theorem div_one_f32 (z : EReal) :
    Ideal.div z (Ideal.ofBits .f32 0x3F800000#32) = z * Ideal.ofBits .f32 0x3F800000#32 := by
  rw [Ideal.ofBits_one_f32, ← EReal.coe_one, Ideal.div_coe one_ne_zero, one_div, inv_one]

/-- The specification's bin of one sample `y`. -/
def binOf (y : EReal) : BitVec 32 :=
  IntOp.minsi 63#32 (IntOp.maxsi 0#32 (FloatOps.fptosi (F := Ideal) (φ := .f32) 32
    (FloatOps.mulf (FloatOps.minimumf (FloatOps.ofBits .f32 0x3F800000#32)
        (FloatOps.maximumf (FloatOps.ofBits .f32 0x00000000#32)
          (FloatOps.mulf (FloatOps.subf y (FloatOps.ofBits .f32 0x00000000#32)) (FloatOps.ofBits .f32 0x3F800000#32))))
      (FloatOps.ofBits .f32 0x42800000#32))))

/-- `binVec` acts sample by sample. -/
theorem binVec_at {s : Shape} (X : FVec Ideal s .f32) (i : s.Idx) : binVec X i = binOf (X i) := rfl

/-- The reference's bin of one sample — the same expression with a division by one for the product with one — is the
    specification's. -/
theorem refBin_eq (y : EReal) :
    IntOp.minsi 63#32 (IntOp.maxsi 0#32 (FloatOps.fptosi (F := Ideal) (φ := .f32) 32
      (FloatOps.mulf (FloatOps.minimumf (FloatOps.ofBits .f32 0x3F800000#32)
          (FloatOps.maximumf (FloatOps.ofBits .f32 0x00000000#32)
            (FloatOps.hostDivf (FloatOps.subf y (FloatOps.ofBits .f32 0x00000000#32)) (FloatOps.ofBits .f32 0x3F800000#32))))
        (FloatOps.ofBits .f32 0x42800000#32)))) = binOf y := by
  unfold binOf
  rw [Ideal.hostDivf_def, Ideal.ofBits_def, div_one_f32]
  rfl

/-- Every bin lies in 0 … 63. -/
theorem binVec_range {s : Shape} (X : FVec Ideal s .f32) (i : s.Idx) :
    0 ≤ (binVec X i).toInt ∧ (binVec X i).toInt ≤ 63 := by
  rw [binVec_at]; exact clamp_range _

/-! ## The scatter of ones at the words `bin + 64 · row` counts -/

/-- The row of the flat position `j`. -/
def rowOf (j : Fin 25165824) : Fin 96 := ⟨j.val / 262144, by have := j.isLt; omega⟩
/-- The column of the flat position `j`. -/
def colOf (j : Fin 25165824) : Fin 262144 := ⟨j.val % 262144, by have := j.isLt; omega⟩

/-- For an array `B` of words in 0 … 63: adding a one into slot `B (row, col) + 64 · row` of a zeroed array, once for
    every position of the flattened 96 × 262144 array, leaves in slot `64 r + q` the number of columns `e` with
    `B (r, e) = q`. -/
theorem scatter_counts (B : IVec S96x262144 32) (hB : ∀ i, 0 ≤ (B i).toInt ∧ (B i).toInt ≤ 63)
    (W : IVec S25165824x1 32)
    (hW : ∀ j : Fin 25165824, W (ix2 j (0 : Fin 1))
        = IntOp.addi (B (ix2 (rowOf j) (colOf j))) (IntOp.muli (BitVec.ofNat 32 (rowOf j).val) 64#32))
    (x : S6144.Idx → EReal) (hx : ∀ i, x i = 0)
    (upd : S25165824.Idx → EReal) (hupd : ∀ j, upd j = 1)
    (r : Fin 96) (q : Fin 64) (i : Fin 6144) (hi : i.val = r.val * 64 + q.val) :
    Ideal.hostScatterAdd scatter_S6144_S25165824x1_S25165824_n_0_0_1 x W upd (ix1 i)
      = ∑ e : Fin 262144, if B (ix2 r e) = BitVec.ofNat 32 q.val then (1 : EReal) else 0 := by
  rw [scatterAdd_flat_apply scatter_S6144_S25165824x1_S25165824_n_0_0_1 rfl rfl rfl rfl x W upd i, hx, zero_add]
  -- each term is a function of the position's row and column
  have hterm : ∀ j : Fin 25165824,
      (if (W (ix2 j (0 : Fin 1))).toInt = (i.val : Int) then upd (ix1 j) else 0)
        = (fun (p : Fin 96) (c : Fin 262144) =>
            if p = r ∧ B (ix2 p c) = BitVec.ofNat 32 q.val then (1 : EReal) else 0) (rowOf j) (colOf j) := by
    intro j
    rw [hW j, hupd, hi]
    refine if_congr ?_ rfl rfl
    rw [word_eq_iff (B (ix2 (rowOf j) (colOf j))) (hB _) (rowOf j).val (rowOf j).isLt r.val q.val r.isLt q.isLt,
      Fin.ext_iff]
  rw [Finset.sum_congr rfl (fun j _ => hterm j)]
  -- the flat sum is the sum over rows of the sums over columns; only row `r` contributes
  rw [sum_rows_cols (a := 96) (b := 262144)
    (fun (p : Fin 96) (c : Fin 262144) => if p = r ∧ B (ix2 p c) = BitVec.ofNat 32 q.val then (1 : EReal) else 0)
    rowOf colOf (fun _ => rfl) (fun _ => rfl)]
  rw [Finset.sum_eq_single r]
  · refine Finset.sum_congr rfl fun c _ => ?_
    exact if_congr (and_iff_right rfl) rfl rfl
  · intro p _ hp
    exact Finset.sum_eq_zero fun c _ => if_neg fun h => hp h.1
  · intro h; exact absurd (Finset.mem_univ r) h

/-- Over the extended reals the host's accumulating scatter is the exact one. -/
theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- An entry of the specification's count array. -/
theorem cnt_at (X : FVec Ideal Sflat .f32) (r : Fin 96) (q : Fin 64) : cnt X (ix2 r q) = cntAt X r q := rfl

/-! ## The first argument's chain -/

/-- The first argument's clamped bin array is the specification's bins of the reshaped argument. -/
theorem bins0 (x0 : (⟨S32x3x512x512, .f32⟩ : BufTy).Contents (Elt Ideal)) (i : S96x262144.Idx) :
    val_main_v9 (F := Ideal) x0 i = binVec (F := Ideal) (shapeCast S96x262144 x0 shapeCasts_S32x3x512x512_S96x262144) i := by
  -- the reshape reads the argument at the position with the same row-major offset
  have hX : shapeCast S96x262144 x0 shapeCasts_S32x3x512x512_S96x262144 i = x0 (idx_main_v5 i) :=
    shapeCast_apply x0 shapeCasts_S32x3x512x512_S96x262144 i (idx_main_v5 i)
      (by rewrite [Shape.rowMajor_val_four, Shape.rowMajor_val_two]; have h0 : (i 0).val < 96 := (i 0).isLt; have h1 : (i 1).val < 262144 := (i 1).isLt; show ((((i 0).val * 262144 + (i 1).val) / 786432 * 3 + ((i 0).val * 262144 + (i 1).val) / 262144 % 3) * 512 + ((i 0).val * 262144 + (i 1).val) / 512 % 512) * 512 + ((i 0).val * 262144 + (i 1).val) % 512 = (i 0).val * 262144 + (i 1).val; omega)
  rw [binVec_at, hX, ← refBin_eq]
  rw [val_main_v9_apply, val_main_call1_v4_apply, val_main_call1_v3_apply, val_main_c_4_apply,
    val_main_call1_v2_apply, val_main_call1_v1_apply, val_main_call1_v0_apply, val_main_c_apply,
    val_main_v8_apply, val_main_v7_apply, val_main_v6_apply, val_main_cst_3_apply, val_main_v5_apply,
    val_main_v4_apply, val_main_call0_v4_apply, val_main_call0_v3_apply, val_main_cst_2_apply,
    val_main_call0_v2_apply, val_main_call0_v1_apply, val_main_call0_v0_apply, val_main_cst_1_apply,
    val_main_v3_apply, val_main_v2_apply, val_main_cst_0_apply, val_main_v1_apply, val_main_v0_apply,
    val_main_cst_apply]

/-- The word the scatter reads for the flat position `j`: the bin at `j`'s row and column plus 64 times the row. -/
theorem word0 (x0 : (⟨S32x3x512x512, .f32⟩ : BufTy).Contents (Elt Ideal)) (j : Fin 25165824) :
    val_main_v19 (F := Ideal) x0 (ix2 j (0 : Fin 1))
      = IntOp.addi (val_main_v9 (F := Ideal) x0 (ix2 (rowOf j) (colOf j)))
          (IntOp.muli (BitVec.ofNat 32 (rowOf j).val) 64#32) := by
  have hidx : idx_main_v16 (idx_main_v19 (ix2 j (0 : Fin 1))) = ix2 (rowOf j) (colOf j) := by
    funext a; match a with | ⟨0, _⟩ => rfl | ⟨1, _⟩ => rfl
  rw [val_main_v19_apply, val_main_v16_apply, val_main_v15_apply, hidx, val_main_v14_apply, val_main_v13_apply,
    val_main_v12_apply, val_main_v11_apply, val_main_c_5_apply, val_main_v10_apply]

theorem counts0 (x0 : (⟨S32x3x512x512, .f32⟩ : BufTy).Contents (Elt Ideal)) :
    val_main_v21 (F := Ideal) x0 = cnt (shapeCast S96x262144 x0 shapeCasts_S32x3x512x512_S96x262144) := by
  funext i
  obtain ⟨r, q, rfl⟩ : ∃ (r : Fin 96) (q : Fin 64), i = ix2 r q := ⟨i 0, i 1, eq_ix2 i⟩
  -- entry (r, q) of the reshaped result is slot 64 r + q of the scatter's
  have hidx : idx_main_v21 (ix2 r q)
      = ix1 (⟨r.val * 64 + q.val, by have := r.isLt; have := q.isLt; omega⟩ : Fin 6144) := by
    funext a; match a with | ⟨0, _⟩ => rfl
  rw [val_main_v21_apply, hidx]
  unfold val_main_v20
  rw [scatterAdd_ideal]
  refine (scatter_counts (binVec (F := Ideal) (shapeCast S96x262144 x0 shapeCasts_S32x3x512x512_S96x262144)) (binVec_range _)
    (val_main_v19 (F := Ideal) x0) (fun j => ?_) (val_main_v18 (F := Ideal)) (fun k => ?_)
    (val_main_v17 (F := Ideal)) (fun k => ?_) r q _ rfl).trans ?_
  · rw [word0, bins0]
  · rw [val_main_v18_apply, val_main_cst_7_apply, Ideal.ofBits_def, Ideal.ofBits_zero_f32]
  · rw [val_main_v17_apply, val_main_cst_6_apply, Ideal.ofBits_def, Ideal.ofBits_one_f32]
  · rw [cnt_at, cntAt_eq_flat]

/-! ## The second argument's chain -/

/-- The second argument's clamped bin array is the specification's bins of the reshaped argument. -/
theorem bins1 (x1 : (⟨S32x3x512x512, .f32⟩ : BufTy).Contents (Elt Ideal)) (i : S96x262144.Idx) :
    val_main_v37 (F := Ideal) x1 i = binVec (F := Ideal) (shapeCast S96x262144 x1 shapeCasts_S32x3x512x512_S96x262144) i := by
  -- the reshape reads the argument at the position with the same row-major offset
  have hX : shapeCast S96x262144 x1 shapeCasts_S32x3x512x512_S96x262144 i = x1 (idx_main_v33 i) :=
    shapeCast_apply x1 shapeCasts_S32x3x512x512_S96x262144 i (idx_main_v33 i)
      (by rewrite [Shape.rowMajor_val_four, Shape.rowMajor_val_two]; have h0 : (i 0).val < 96 := (i 0).isLt; have h1 : (i 1).val < 262144 := (i 1).isLt; show ((((i 0).val * 262144 + (i 1).val) / 786432 * 3 + ((i 0).val * 262144 + (i 1).val) / 262144 % 3) * 512 + ((i 0).val * 262144 + (i 1).val) / 512 % 512) * 512 + ((i 0).val * 262144 + (i 1).val) % 512 = (i 0).val * 262144 + (i 1).val; omega)
  rw [binVec_at, hX, ← refBin_eq]
  rw [val_main_v37_apply, val_main_call4_v4_apply, val_main_call4_v3_apply, val_main_c_16_apply,
    val_main_call4_v2_apply, val_main_call4_v1_apply, val_main_call4_v0_apply, val_main_c_15_apply,
    val_main_v36_apply, val_main_v35_apply, val_main_v34_apply, val_main_cst_14_apply, val_main_v33_apply,
    val_main_v32_apply, val_main_call3_v4_apply, val_main_call3_v3_apply, val_main_cst_13_apply,
    val_main_call3_v2_apply, val_main_call3_v1_apply, val_main_call3_v0_apply, val_main_cst_12_apply,
    val_main_v31_apply, val_main_v30_apply, val_main_cst_11_apply, val_main_v29_apply, val_main_v28_apply,
    val_main_cst_10_apply]

/-- The word the scatter reads for the flat position `j`: the bin at `j`'s row and column plus 64 times the row. -/
theorem word1 (x1 : (⟨S32x3x512x512, .f32⟩ : BufTy).Contents (Elt Ideal)) (j : Fin 25165824) :
    val_main_v47 (F := Ideal) x1 (ix2 j (0 : Fin 1))
      = IntOp.addi (val_main_v37 (F := Ideal) x1 (ix2 (rowOf j) (colOf j)))
          (IntOp.muli (BitVec.ofNat 32 (rowOf j).val) 64#32) := by
  have hidx : idx_main_v44 (idx_main_v47 (ix2 j (0 : Fin 1))) = ix2 (rowOf j) (colOf j) := by
    funext a; match a with | ⟨0, _⟩ => rfl | ⟨1, _⟩ => rfl
  rw [val_main_v47_apply, val_main_v44_apply, val_main_v43_apply, hidx, val_main_v42_apply, val_main_v41_apply,
    val_main_v40_apply, val_main_v39_apply, val_main_c_17_apply, val_main_v38_apply]

theorem counts1 (x1 : (⟨S32x3x512x512, .f32⟩ : BufTy).Contents (Elt Ideal)) :
    val_main_v49 (F := Ideal) x1 = cnt (shapeCast S96x262144 x1 shapeCasts_S32x3x512x512_S96x262144) := by
  funext i
  obtain ⟨r, q, rfl⟩ : ∃ (r : Fin 96) (q : Fin 64), i = ix2 r q := ⟨i 0, i 1, eq_ix2 i⟩
  -- entry (r, q) of the reshaped result is slot 64 r + q of the scatter's
  have hidx : idx_main_v49 (ix2 r q)
      = ix1 (⟨r.val * 64 + q.val, by have := r.isLt; have := q.isLt; omega⟩ : Fin 6144) := by
    funext a; match a with | ⟨0, _⟩ => rfl
  rw [val_main_v49_apply, hidx]
  unfold val_main_v48
  rw [scatterAdd_ideal]
  refine (scatter_counts (binVec (F := Ideal) (shapeCast S96x262144 x1 shapeCasts_S32x3x512x512_S96x262144)) (binVec_range _)
    (val_main_v47 (F := Ideal) x1) (fun j => ?_) (val_main_v46 (F := Ideal)) (fun k => ?_)
    (val_main_v45 (F := Ideal)) (fun k => ?_) r q _ rfl).trans ?_
  · rw [word1, bins1]
  · rw [val_main_v46_apply, val_main_cst_19_apply, Ideal.ofBits_def, Ideal.ofBits_zero_f32]
  · rw [val_main_v45_apply, val_main_cst_18_apply, Ideal.ofBits_def, Ideal.ofBits_one_f32]
  · rw [cnt_at, cntAt_eq_flat]

end Cert.ReferenceIdeal.Counts

end
-- ==== Proof.RefTail.lean ====
/-
  From its two count arrays the reference computes the specification's loss.

  Each count array is divided, entry by entry, by the larger of a small constant and the entry's row total: that is
  the specification's `rowNorm` (the row total is read through three index maps that together send `(r, q), k` to
  `(r, k)`). The two normalized arrays are then viewed as 32 × 3 × 64 arrays, subtracted, and the absolute values are
  summed over all 6144 entries; the view's index map `(b, c, q) ↦ (3 b + c, q)` is a bijection onto the 96 × 64
  indices, so that sum is the specification's sum over the 96 × 64 entries. The final division by 6144 is the
  specification's.
-/
import proofs.«135669_j26886495272980_1_alg».proof.Proof.Gen.ReferenceIdeal.Read
import proofs.«135669_j26886495272980_1_alg».proof.Proof.Spec

noncomputable section

namespace Cert.ReferenceIdeal.Tail

open Cert.ReferenceIdeal Cert.ReferenceIdeal.Gen Cert.ReferenceIdeal.Read Cert.Hist
open Idealize.ShloMosaic Idealize.ShloMosaic.TcCoe Idealize.ShloMosaic.ValueIdx

/-! ## The row normalization -/

/-- Entry `(r, q)`'s divisor reads the row total of row `r`: the three index maps compose to `k ↦ (r, k)`. -/
theorem rowIdx0 (j : S96x64.Idx) (k : Fin 64) :
    idx_main_v22 (idx_main_v23 (idx_main_v25 j)) k = (ix2 (j 0) k : S96x64.Idx) :=
  funext fun a => Fin.ext (by match a with | ⟨0, _⟩ => rfl | ⟨1, _⟩ => rfl)

/-- The same for the second array. -/
theorem rowIdx1 (j : S96x64.Idx) (k : Fin 64) :
    idx_main_v50 (idx_main_v51 (idx_main_v53 j)) k = (ix2 (j 0) k : S96x64.Idx) :=
  funext fun a => Fin.ext (by match a with | ⟨0, _⟩ => rfl | ⟨1, _⟩ => rfl)

/-- The first array's normalized entry is the specification's `rowNorm` of its counts. -/
theorem norm0 (x0 : (⟨S32x3x512x512, .f32⟩ : BufTy).Contents (Elt Ideal)) (j : S96x64.Idx) :
    val_main_v26 (F := Ideal) x0 j = rowNorm (val_main_v21 (F := Ideal) x0) j := by
  rw [val_main_v26_apply, val_main_v25_apply, val_main_v24_apply, val_main_v23_apply, val_main_v22_apply,
    val_main_call2_v1_apply, val_main_call2_v0_apply, val_main_cst_9_apply, val_main_cst_8_apply]
  generalize val_main_v21 (F := Ideal) x0 = C
  simp only [rowIdx0]
  rfl

/-- The second array's normalized entry is the specification's `rowNorm` of its counts. -/
theorem norm1 (x1 : (⟨S32x3x512x512, .f32⟩ : BufTy).Contents (Elt Ideal)) (j : S96x64.Idx) :
    val_main_v54 (F := Ideal) x1 j = rowNorm (val_main_v49 (F := Ideal) x1) j := by
  rw [val_main_v54_apply, val_main_v53_apply, val_main_v52_apply, val_main_v51_apply, val_main_v50_apply,
    val_main_call5_v1_apply, val_main_call5_v0_apply, val_main_cst_21_apply, val_main_cst_20_apply]
  generalize val_main_v49 (F := Ideal) x1 = C
  simp only [rowIdx1]
  rfl

/-! ## The 32 × 3 × 64 view is a bijection onto the 96 × 64 indices -/

/-- `(b, c, q) ↦ (3 b + c, q)`, with inverse `(r, q) ↦ (r / 3, r % 3, q)`. -/
def viewEquiv : S32x3x64.Idx ≃ S96x64.Idx where
  toFun := idx_main_v27
  invFun j := ix3 (⟨(j 0).val / 3, by have h0 : (j 0).val < 96 := (j 0).isLt; omega⟩ : Fin 32)
    (⟨(j 0).val % 3, by omega⟩ : Fin 3) (⟨(j 1).val, (j 1).isLt⟩ : Fin 64)
  left_inv i := by
    have h0 : (i 0).val < 32 := (i 0).isLt
    have h1 : (i 1).val < 3 := (i 1).isLt
    have h2 : (i 2).val < 64 := (i 2).isLt
    funext a
    match a with
    | ⟨0, _⟩ => exact Fin.ext (show (((i 0).val * 3 + (i 1).val) * 64 + (i 2).val) / 64 / 3 = (i 0).val by omega)
    | ⟨1, _⟩ => exact Fin.ext (show (((i 0).val * 3 + (i 1).val) * 64 + (i 2).val) / 64 % 3 = (i 1).val by omega)
    | ⟨2, _⟩ => exact Fin.ext (show (((i 0).val * 3 + (i 1).val) * 64 + (i 2).val) % 64 = (i 2).val by omega)
  right_inv j := by
    have h0 : (j 0).val < 96 := (j 0).isLt
    have h1 : (j 1).val < 64 := (j 1).isLt
    funext a
    match a with
    | ⟨0, _⟩ => exact Fin.ext (show (((j 0).val / 3 * 3 + (j 0).val % 3) * 64 + (j 1).val) / 64 = (j 0).val by omega)
    | ⟨1, _⟩ => exact Fin.ext (show (((j 0).val / 3 * 3 + (j 0).val % 3) * 64 + (j 1).val) % 64 = (j 1).val by omega)

/-! ## The summand, and the sum -/

/-- The absolute difference of the two normalized count arrays at one entry. -/
def absDiff (Cf Cr : FVec Ideal Sacc .f32) (j : S96x64.Idx) : EReal :=
  max (rowNorm Cf j - rowNorm Cr j) (-(rowNorm Cf j - rowNorm Cr j))

/-- An entry of the viewed absolute difference is `absDiff` at the view's index. -/
theorem abs_read (x0 x1 : (⟨S32x3x512x512, .f32⟩ : BufTy).Contents (Elt Ideal)) (i : S32x3x64.Idx) :
    val_main_v57 (F := Ideal) x0 x1 i
      = absDiff (val_main_v21 (F := Ideal) x0) (val_main_v49 (F := Ideal) x1) (viewEquiv i) := by
  rw [val_main_v57_apply, val_main_v56_apply, val_main_v27_apply, val_main_v55_apply, norm0, norm1]
  generalize val_main_v21 (F := Ideal) x0 = Cf
  generalize val_main_v49 (F := Ideal) x1 = Cr
  rfl

/-- The sum over the 32 × 3 × 64 view is the sum over the 96 × 64 entries. -/
theorem sum_abs (x0 x1 : (⟨S32x3x512x512, .f32⟩ : BufTy).Contents (Elt Ideal)) :
    ∑ i : S32x3x64.Idx, val_main_v57 (F := Ideal) x0 x1 i
      = ∑ j : S96x64.Idx, absDiff (val_main_v21 (F := Ideal) x0) (val_main_v49 (F := Ideal) x1) j :=
  (Finset.sum_congr rfl fun i _ => abs_read x0 x1 i).trans (Equiv.sum_comp viewEquiv _)

theorem tail_eq (x0 x1 : (⟨S32x3x512x512, .f32⟩ : BufTy).Contents (Elt Ideal)) :
    val_main_v59 (F := Ideal) x0 x1 = fun _ => loss (val_main_v21 (F := Ideal) x0) (val_main_v49 (F := Ideal) x1) := by
  funext i
  rw [val_main_v59_apply, val_main_v58_apply, val_main_cst_22_apply, val_main_cst_23_apply, sum_abs]
  generalize val_main_v21 (F := Ideal) x0 = Cf
  generalize val_main_v49 (F := Ideal) x1 = Cr
  rfl

end Cert.ReferenceIdeal.Tail

end
-- ==== Proof.lean ====
/-
  A per-row histogram loss: two arrays of 32 × 3 × 512 × 512 samples are flattened to 96 rows of 262144 samples; every
  sample is clamped to [0, 1], scaled by 64, truncated and clamped to a bin 0 … 63; each row's 64 counts are divided by
  the larger of their total and a small constant; the result is the mean absolute difference of the two arrays'
  normalized counts.

  The kernel counts by comparison: it streams each row in 64 tiles of 4096 samples and, for every bin, adds to a 96 × 64
  accumulator the outer product of the per-row number of the tile's samples in that bin with the bin's position
  indicator. The reference counts by an accumulating scatter of ones into 6144 slots, slot 64·row + bin. Over the
  extended reals both arrays of counts are the same sums of 0/1 indicators (`Cert.Hist.cnt`: the kernel's by induction
  over the tiles, the reference's by reading the scatter slot by slot and splitting its 25165824 updates by row), and both
  programs then apply the same normalization and mean (`Cert.Hist.loss`; the reference over a 32 × 3 × 64 view of the same
  96 × 64 entries). No law beyond reordering finite sums joins the two sides, so the finiteness of the inputs is not used.
-/
import proofs.«135669_j26886495272980_1_alg».proof.Defs
import proofs.«135669_j26886495272980_1_alg».proof.Proof.Gen.Kernel
import proofs.«135669_j26886495272980_1_alg».proof.Proof.Gen.Kernel.Frame
import proofs.«135669_j26886495272980_1_alg».proof.Proof.Gen.KernelIdeal
import proofs.«135669_j26886495272980_1_alg».proof.Proof.Gen.KernelIdeal.Frame
import proofs.«135669_j26886495272980_1_alg».proof.Proof.Gen.ReferenceIdeal
import proofs.«135669_j26886495272980_1_alg».proof.Proof.Gen.Pre_finite_inputs
import proofs.«135669_j26886495272980_1_alg».proof.Proof.Gen.ReferenceIdeal.Run
import proofs.«135669_j26886495272980_1_alg».proof.Proof.Gen.ReferenceIdeal.Read
import proofs.«135669_j26886495272980_1_alg».proof.Proof.KernelValue
import proofs.«135669_j26886495272980_1_alg».proof.Proof.RefCounts
import proofs.«135669_j26886495272980_1_alg».proof.Proof.RefTail
import Idealize.ShloMosaic.Adequacy
import Idealize.ShloMosaic.Init

noncomputable section

namespace Cert.Proof

open Idealize.ShloMosaic Idealize.SL.Sem Cert.Hist

/-- The reference's result, over the extended reals, is the loss of its two arguments' counts. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v59 (F := Ideal) m' c
      = fun _ => loss
          (cnt (shapeCast Cert.ReferenceIdeal.S96x262144
            (m' ((c.tc : Thread Cert.ReferenceIdeal.nD Cert.ReferenceIdeal.τ).loc Cert.ReferenceIdeal.main_arg0))
            Cert.ReferenceIdeal.Facts₀.shapeCasts_S32x3x512x512_S96x262144))
          (cnt (shapeCast Cert.ReferenceIdeal.S96x262144
            (m' ((c.tc : Thread Cert.ReferenceIdeal.nD Cert.ReferenceIdeal.τ).loc Cert.ReferenceIdeal.main_arg1))
            Cert.ReferenceIdeal.Facts₀.shapeCasts_S32x3x512x512_S96x262144)) := by
  rw [Cert.ReferenceIdeal.Read.val_main_v59_eq, Cert.ReferenceIdeal.Tail.tail_eq, Cert.ReferenceIdeal.Counts.counts0,
    Cert.ReferenceIdeal.Counts.counts1]
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments both programs end at the loss of the arguments' counts. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [ref_value, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
